-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 4294867296#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 102
  | .vmem => 30
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1, .i32⟩
  | .hbm, ⟨22, _⟩ => ⟨S_, .i32⟩
  | .hbm, ⟨23, _⟩ => ⟨S1600000x1, .i32⟩
  | .hbm, ⟨24, _⟩ => ⟨S1600000x1, .i1⟩
  | .hbm, ⟨25, _⟩ => ⟨S1x1, .i32⟩
  | .hbm, ⟨26, _⟩ => ⟨S1600000x1, .i32⟩
  | .hbm, ⟨27, _⟩ => ⟨S1600000x1, .i1⟩
  | .hbm, ⟨28, _⟩ => ⟨S1600000x1, .i1⟩
  | .hbm, ⟨29, _⟩ => ⟨S_, .i1⟩
  | .hbm, ⟨30, _⟩ => ⟨S1600000, .i1⟩
  | .hbm, ⟨31, _⟩ => ⟨S1600000x128, .f32⟩
  | .hbm, ⟨32, _⟩ => ⟨S1600000x128, .i1⟩
  | .hbm, ⟨33, _⟩ => ⟨S_, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1, .i32⟩
  | .hbm, ⟨52, _⟩ => ⟨S_, .i32⟩
  | .hbm, ⟨53, _⟩ => ⟨S1600000x1, .i32⟩
  | .hbm, ⟨54, _⟩ => ⟨S1600000x1, .i1⟩
  | .hbm, ⟨55, _⟩ => ⟨S1x1, .i32⟩
  | .hbm, ⟨56, _⟩ => ⟨S1600000x1, .i32⟩
  | .hbm, ⟨57, _⟩ => ⟨S1600000x1, .i1⟩
  | .hbm, ⟨58, _⟩ => ⟨S1600000x1, .i1⟩
  | .hbm, ⟨59, _⟩ => ⟨S_, .i1⟩
  | .hbm, ⟨60, _⟩ => ⟨S1600000, .i1⟩
  | .hbm, ⟨61, _⟩ => ⟨S1600000x64, .f32⟩
  | .hbm, ⟨62, _⟩ => ⟨S1600000x64, .i1⟩
  | .hbm, ⟨63, _⟩ => ⟨S_, .f32⟩
  | .hbm, ⟨64, _⟩ => ⟨S1600000x64, .f32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1, .i32⟩
  | .hbm, ⟨82, _⟩ => ⟨S_, .i32⟩
  | .hbm, ⟨83, _⟩ => ⟨S1600000x1, .i32⟩
  | .hbm, ⟨84, _⟩ => ⟨S1600000x1, .i1⟩
  | .hbm, ⟨85, _⟩ => ⟨S1x1, .i32⟩
  | .hbm, ⟨86, _⟩ => ⟨S1600000x1, .i32⟩
  | .hbm, ⟨87, _⟩ => ⟨S1600000x1, .i1⟩
  | .hbm, ⟨88, _⟩ => ⟨S1600000x1, .i1⟩
  | .hbm, ⟨89, _⟩ => ⟨S_, .i1⟩
  | .hbm, ⟨90, _⟩ => ⟨S1600000, .i1⟩
  | .hbm, ⟨91, _⟩ => ⟨S1600000x64, .f32⟩
  | .hbm, ⟨92, _⟩ => ⟨S1600000x64, .i1⟩
  | .hbm, ⟨93, _⟩ => ⟨S_, .f32⟩
  | .hbm, ⟨94, _⟩ => ⟨S1600000x64, .f32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S1x64, .f32⟩
  | .hbm, ⟨101, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v5 : Ref sig .tc := ⟨.hbm, 35, rfl⟩
abbrev main_cst : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v12 : Ref sig .tc := ⟨.hbm, 65, rfl⟩
abbrev main_cst_0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v19 : Ref sig .tc := ⟨.hbm, 95, rfl⟩
abbrev main_cst_1 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v10) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v10) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v18) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v22) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v23) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v24) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 66
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Walks.lean ====
/-
  A buffer that a stretch of host operations does not write, and that is not an array of a region, holds after it
  what it held before. The edge list's two rows (computed once, in the first stretch) and each argument are carried
  this way from where they are made to every later stretch or region that reads them; so are the hidden features
  between their two readers and the first result to the end of the run.
-/
import proofs.«412450_j44203803410712_2_alg».proof.Proof.Gen.KernelIdeal.Frame
import Idealize.ShloMosaic.Lib.StableHlo.Run

set_option maxRecDepth 16384

noncomputable section

namespace Cert.KernelIdeal.Walks

open Idealize.ShloMosaic Idealize.ShloMosaic.TcCoe Idealize.ShloMosaic.StableHlo
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- The source row of the edge list. -/
abbrev srcRow (ei : IVec S2x1600000 32) : IVec S1600000 32 :=
  shapeCast S1600000 (extractStridedSlice S1x1600000 ![0, 0] ei slices_S2x1600000_S1x1600000_0_0) shapeCasts_S1x1600000_S1600000
/-- The destination row of the edge list. -/
abbrev dstRow (ei : IVec S2x1600000 32) : IVec S1600000 32 :=
  shapeCast S1600000 (extractStridedSlice S1x1600000 ![1, 0] ei slices_S2x1600000_S1x1600000_1_0) shapeCasts_S1x1600000_S1600000

/-! ## The edge list's two rows, as every later stretch finds them -/

theorem src_W1 (c : Dev nD) : W1 m ρ c (Proc.devRef .tc main_v1) = srcRow (m ((c : Thread nD τ).loc main_arg1)) := by
  show StableHlo.after hostOps0 (W0 m ρ c) (Proc.devRef .tc main_v1) = _
  after_results
  rfl
theorem dst_W1 (c : Dev nD) : W1 m ρ c (Proc.devRef .tc main_v3) = dstRow (m ((c : Thread nD τ).loc main_arg1)) := by
  show StableHlo.after hostOps0 (W0 m ρ c) (Proc.devRef .tc main_v3) = _
  after_results
  rfl
theorem src_W2 (c : Dev nD) : W2 m ρ c (Proc.devRef .tc main_v1) = srcRow (m ((c : Thread nD τ).loc main_arg1)) :=
  Eq.trans (W2_of_ne m ρ c main_v1 (by decide)) (src_W1 m ρ c)
theorem src_W3 (c : Dev nD) : W3 m ρ c (Proc.devRef .tc main_v1) = srcRow (m ((c : Thread nD τ).loc main_arg1)) :=
  Eq.trans (by show StableHlo.after hostOps1 (W2 m ρ c) (Proc.devRef .tc main_v1) = _; after_results) (src_W2 m ρ c)
theorem src_W4 (c : Dev nD) : W4 m ρ c (Proc.devRef .tc main_v1) = srcRow (m ((c : Thread nD τ).loc main_arg1)) :=
  Eq.trans (by show StableHlo.after hostOps1_1 (W3 m ρ c) (Proc.devRef .tc main_v1) = _; after_results) (src_W3 m ρ c)
theorem src_W5 (c : Dev nD) : W5 m ρ c (Proc.devRef .tc main_v1) = srcRow (m ((c : Thread nD τ).loc main_arg1)) :=
  Eq.trans (W5_of_ne m ρ c main_v1 (by decide)) (src_W4 m ρ c)
theorem src_W6 (c : Dev nD) : W6 m ρ c (Proc.devRef .tc main_v1) = srcRow (m ((c : Thread nD τ).loc main_arg1)) :=
  Eq.trans (W6_of_ne m ρ c main_v1 (by decide)) (src_W5 m ρ c)
theorem src_W7 (c : Dev nD) : W7 m ρ c (Proc.devRef .tc main_v1) = srcRow (m ((c : Thread nD τ).loc main_arg1)) :=
  Eq.trans (by show StableHlo.after hostOps3 (W6 m ρ c) (Proc.devRef .tc main_v1) = _; after_results) (src_W6 m ρ c)
theorem src_W8 (c : Dev nD) : W8 m ρ c (Proc.devRef .tc main_v1) = srcRow (m ((c : Thread nD τ).loc main_arg1)) :=
  Eq.trans (by show StableHlo.after hostOps3_1 (W7 m ρ c) (Proc.devRef .tc main_v1) = _; after_results) (src_W7 m ρ c)
theorem src_W9 (c : Dev nD) : W9 m ρ c (Proc.devRef .tc main_v1) = srcRow (m ((c : Thread nD τ).loc main_arg1)) :=
  Eq.trans (W9_of_ne m ρ c main_v1 (by decide)) (src_W8 m ρ c)
theorem src_W10 (c : Dev nD) : W10 m ρ c (Proc.devRef .tc main_v1) = srcRow (m ((c : Thread nD τ).loc main_arg1)) :=
  Eq.trans (W10_of_ne m ρ c main_v1 (by decide)) (src_W9 m ρ c)
theorem dst_W2 (c : Dev nD) : W2 m ρ c (Proc.devRef .tc main_v3) = dstRow (m ((c : Thread nD τ).loc main_arg1)) :=
  Eq.trans (W2_of_ne m ρ c main_v3 (by decide)) (dst_W1 m ρ c)
theorem dst_W3 (c : Dev nD) : W3 m ρ c (Proc.devRef .tc main_v3) = dstRow (m ((c : Thread nD τ).loc main_arg1)) :=
  Eq.trans (by show StableHlo.after hostOps1 (W2 m ρ c) (Proc.devRef .tc main_v3) = _; after_results) (dst_W2 m ρ c)
theorem dst_W4 (c : Dev nD) : W4 m ρ c (Proc.devRef .tc main_v3) = dstRow (m ((c : Thread nD τ).loc main_arg1)) :=
  Eq.trans (by show StableHlo.after hostOps1_1 (W3 m ρ c) (Proc.devRef .tc main_v3) = _; after_results) (dst_W3 m ρ c)
theorem dst_W5 (c : Dev nD) : W5 m ρ c (Proc.devRef .tc main_v3) = dstRow (m ((c : Thread nD τ).loc main_arg1)) :=
  Eq.trans (W5_of_ne m ρ c main_v3 (by decide)) (dst_W4 m ρ c)
theorem dst_W6 (c : Dev nD) : W6 m ρ c (Proc.devRef .tc main_v3) = dstRow (m ((c : Thread nD τ).loc main_arg1)) :=
  Eq.trans (W6_of_ne m ρ c main_v3 (by decide)) (dst_W5 m ρ c)
theorem dst_W7 (c : Dev nD) : W7 m ρ c (Proc.devRef .tc main_v3) = dstRow (m ((c : Thread nD τ).loc main_arg1)) :=
  Eq.trans (by show StableHlo.after hostOps3 (W6 m ρ c) (Proc.devRef .tc main_v3) = _; after_results) (dst_W6 m ρ c)
theorem dst_W8 (c : Dev nD) : W8 m ρ c (Proc.devRef .tc main_v3) = dstRow (m ((c : Thread nD τ).loc main_arg1)) :=
  Eq.trans (by show StableHlo.after hostOps3_1 (W7 m ρ c) (Proc.devRef .tc main_v3) = _; after_results) (dst_W7 m ρ c)
theorem dst_W9 (c : Dev nD) : W9 m ρ c (Proc.devRef .tc main_v3) = dstRow (m ((c : Thread nD τ).loc main_arg1)) :=
  Eq.trans (W9_of_ne m ρ c main_v3 (by decide)) (dst_W8 m ρ c)
theorem dst_W10 (c : Dev nD) : W10 m ρ c (Proc.devRef .tc main_v3) = dstRow (m ((c : Thread nD τ).loc main_arg1)) :=
  Eq.trans (W10_of_ne m ρ c main_v3 (by decide)) (dst_W9 m ρ c)
theorem dst_W11 (c : Dev nD) : W11 m ρ c (Proc.devRef .tc main_v3) = dstRow (m ((c : Thread nD τ).loc main_arg1)) :=
  Eq.trans (by show StableHlo.after hostOps5 (W10 m ρ c) (Proc.devRef .tc main_v3) = _; after_results) (dst_W10 m ρ c)

/-! ## The arguments, as the stretch or region that reads each finds it -/

theorem arg0_W0 (c : Dev nD) : W0 m ρ c (Proc.devRef .tc main_arg0) = m ((c : Thread nD τ).loc main_arg0) :=
  rfl
theorem arg0_W1 (c : Dev nD) : W1 m ρ c (Proc.devRef .tc main_arg0) = m ((c : Thread nD τ).loc main_arg0) :=
  Eq.trans (by show StableHlo.after hostOps0 (W0 m ρ c) (Proc.devRef .tc main_arg0) = _; after_results) (arg0_W0 m ρ c)
theorem arg2_W0 (c : Dev nD) : W0 m ρ c (Proc.devRef .tc main_arg2) = m ((c : Thread nD τ).loc main_arg2) :=
  rfl
theorem arg2_W1 (c : Dev nD) : W1 m ρ c (Proc.devRef .tc main_arg2) = m ((c : Thread nD τ).loc main_arg2) :=
  Eq.trans (by show StableHlo.after hostOps0 (W0 m ρ c) (Proc.devRef .tc main_arg2) = _; after_results) (arg2_W0 m ρ c)
theorem arg3_W0 (c : Dev nD) : W0 m ρ c (Proc.devRef .tc main_arg3) = m ((c : Thread nD τ).loc main_arg3) :=
  rfl
theorem arg3_W1 (c : Dev nD) : W1 m ρ c (Proc.devRef .tc main_arg3) = m ((c : Thread nD τ).loc main_arg3) :=
  Eq.trans (by show StableHlo.after hostOps0 (W0 m ρ c) (Proc.devRef .tc main_arg3) = _; after_results) (arg3_W0 m ρ c)
theorem arg3_W2 (c : Dev nD) : W2 m ρ c (Proc.devRef .tc main_arg3) = m ((c : Thread nD τ).loc main_arg3) :=
  Eq.trans (W2_of_ne m ρ c main_arg3 (by decide)) (arg3_W1 m ρ c)
theorem arg3_W3 (c : Dev nD) : W3 m ρ c (Proc.devRef .tc main_arg3) = m ((c : Thread nD τ).loc main_arg3) :=
  Eq.trans (by show StableHlo.after hostOps1 (W2 m ρ c) (Proc.devRef .tc main_arg3) = _; after_results) (arg3_W2 m ρ c)
theorem arg4_W0 (c : Dev nD) : W0 m ρ c (Proc.devRef .tc main_arg4) = m ((c : Thread nD τ).loc main_arg4) :=
  rfl
theorem arg4_W1 (c : Dev nD) : W1 m ρ c (Proc.devRef .tc main_arg4) = m ((c : Thread nD τ).loc main_arg4) :=
  Eq.trans (by show StableHlo.after hostOps0 (W0 m ρ c) (Proc.devRef .tc main_arg4) = _; after_results) (arg4_W0 m ρ c)
theorem arg4_W2 (c : Dev nD) : W2 m ρ c (Proc.devRef .tc main_arg4) = m ((c : Thread nD τ).loc main_arg4) :=
  Eq.trans (W2_of_ne m ρ c main_arg4 (by decide)) (arg4_W1 m ρ c)
theorem arg4_W3 (c : Dev nD) : W3 m ρ c (Proc.devRef .tc main_arg4) = m ((c : Thread nD τ).loc main_arg4) :=
  Eq.trans (by show StableHlo.after hostOps1 (W2 m ρ c) (Proc.devRef .tc main_arg4) = _; after_results) (arg4_W2 m ρ c)
theorem arg4_W4 (c : Dev nD) : W4 m ρ c (Proc.devRef .tc main_arg4) = m ((c : Thread nD τ).loc main_arg4) :=
  Eq.trans (by show StableHlo.after hostOps1_1 (W3 m ρ c) (Proc.devRef .tc main_arg4) = _; after_results) (arg4_W3 m ρ c)
theorem arg4_W5 (c : Dev nD) : W5 m ρ c (Proc.devRef .tc main_arg4) = m ((c : Thread nD τ).loc main_arg4) :=
  Eq.trans (W5_of_ne m ρ c main_arg4 (by decide)) (arg4_W4 m ρ c)
theorem arg5_W0 (c : Dev nD) : W0 m ρ c (Proc.devRef .tc main_arg5) = m ((c : Thread nD τ).loc main_arg5) :=
  rfl
theorem arg5_W1 (c : Dev nD) : W1 m ρ c (Proc.devRef .tc main_arg5) = m ((c : Thread nD τ).loc main_arg5) :=
  Eq.trans (by show StableHlo.after hostOps0 (W0 m ρ c) (Proc.devRef .tc main_arg5) = _; after_results) (arg5_W0 m ρ c)
theorem arg5_W2 (c : Dev nD) : W2 m ρ c (Proc.devRef .tc main_arg5) = m ((c : Thread nD τ).loc main_arg5) :=
  Eq.trans (W2_of_ne m ρ c main_arg5 (by decide)) (arg5_W1 m ρ c)
theorem arg5_W3 (c : Dev nD) : W3 m ρ c (Proc.devRef .tc main_arg5) = m ((c : Thread nD τ).loc main_arg5) :=
  Eq.trans (by show StableHlo.after hostOps1 (W2 m ρ c) (Proc.devRef .tc main_arg5) = _; after_results) (arg5_W2 m ρ c)
theorem arg5_W4 (c : Dev nD) : W4 m ρ c (Proc.devRef .tc main_arg5) = m ((c : Thread nD τ).loc main_arg5) :=
  Eq.trans (by show StableHlo.after hostOps1_1 (W3 m ρ c) (Proc.devRef .tc main_arg5) = _; after_results) (arg5_W3 m ρ c)
theorem arg5_W5 (c : Dev nD) : W5 m ρ c (Proc.devRef .tc main_arg5) = m ((c : Thread nD τ).loc main_arg5) :=
  Eq.trans (W5_of_ne m ρ c main_arg5 (by decide)) (arg5_W4 m ρ c)
theorem arg5_W6 (c : Dev nD) : W6 m ρ c (Proc.devRef .tc main_arg5) = m ((c : Thread nD τ).loc main_arg5) :=
  Eq.trans (W6_of_ne m ρ c main_arg5 (by decide)) (arg5_W5 m ρ c)
theorem arg5_W7 (c : Dev nD) : W7 m ρ c (Proc.devRef .tc main_arg5) = m ((c : Thread nD τ).loc main_arg5) :=
  Eq.trans (by show StableHlo.after hostOps3 (W6 m ρ c) (Proc.devRef .tc main_arg5) = _; after_results) (arg5_W6 m ρ c)
theorem arg6_W0 (c : Dev nD) : W0 m ρ c (Proc.devRef .tc main_arg6) = m ((c : Thread nD τ).loc main_arg6) :=
  rfl
theorem arg6_W1 (c : Dev nD) : W1 m ρ c (Proc.devRef .tc main_arg6) = m ((c : Thread nD τ).loc main_arg6) :=
  Eq.trans (by show StableHlo.after hostOps0 (W0 m ρ c) (Proc.devRef .tc main_arg6) = _; after_results) (arg6_W0 m ρ c)
theorem arg6_W2 (c : Dev nD) : W2 m ρ c (Proc.devRef .tc main_arg6) = m ((c : Thread nD τ).loc main_arg6) :=
  Eq.trans (W2_of_ne m ρ c main_arg6 (by decide)) (arg6_W1 m ρ c)
theorem arg6_W3 (c : Dev nD) : W3 m ρ c (Proc.devRef .tc main_arg6) = m ((c : Thread nD τ).loc main_arg6) :=
  Eq.trans (by show StableHlo.after hostOps1 (W2 m ρ c) (Proc.devRef .tc main_arg6) = _; after_results) (arg6_W2 m ρ c)
theorem arg6_W4 (c : Dev nD) : W4 m ρ c (Proc.devRef .tc main_arg6) = m ((c : Thread nD τ).loc main_arg6) :=
  Eq.trans (by show StableHlo.after hostOps1_1 (W3 m ρ c) (Proc.devRef .tc main_arg6) = _; after_results) (arg6_W3 m ρ c)
theorem arg6_W5 (c : Dev nD) : W5 m ρ c (Proc.devRef .tc main_arg6) = m ((c : Thread nD τ).loc main_arg6) :=
  Eq.trans (W5_of_ne m ρ c main_arg6 (by decide)) (arg6_W4 m ρ c)
theorem arg6_W6 (c : Dev nD) : W6 m ρ c (Proc.devRef .tc main_arg6) = m ((c : Thread nD τ).loc main_arg6) :=
  Eq.trans (W6_of_ne m ρ c main_arg6 (by decide)) (arg6_W5 m ρ c)
theorem arg6_W7 (c : Dev nD) : W7 m ρ c (Proc.devRef .tc main_arg6) = m ((c : Thread nD τ).loc main_arg6) :=
  Eq.trans (by show StableHlo.after hostOps3 (W6 m ρ c) (Proc.devRef .tc main_arg6) = _; after_results) (arg6_W6 m ρ c)
theorem arg6_W8 (c : Dev nD) : W8 m ρ c (Proc.devRef .tc main_arg6) = m ((c : Thread nD τ).loc main_arg6) :=
  Eq.trans (by show StableHlo.after hostOps3_1 (W7 m ρ c) (Proc.devRef .tc main_arg6) = _; after_results) (arg6_W7 m ρ c)
theorem arg6_W9 (c : Dev nD) : W9 m ρ c (Proc.devRef .tc main_arg6) = m ((c : Thread nD τ).loc main_arg6) :=
  Eq.trans (W9_of_ne m ρ c main_arg6 (by decide)) (arg6_W8 m ρ c)
theorem arg7_W0 (c : Dev nD) : W0 m ρ c (Proc.devRef .tc main_arg7) = m ((c : Thread nD τ).loc main_arg7) :=
  rfl
theorem arg7_W1 (c : Dev nD) : W1 m ρ c (Proc.devRef .tc main_arg7) = m ((c : Thread nD τ).loc main_arg7) :=
  Eq.trans (by show StableHlo.after hostOps0 (W0 m ρ c) (Proc.devRef .tc main_arg7) = _; after_results) (arg7_W0 m ρ c)
theorem arg7_W2 (c : Dev nD) : W2 m ρ c (Proc.devRef .tc main_arg7) = m ((c : Thread nD τ).loc main_arg7) :=
  Eq.trans (W2_of_ne m ρ c main_arg7 (by decide)) (arg7_W1 m ρ c)
theorem arg7_W3 (c : Dev nD) : W3 m ρ c (Proc.devRef .tc main_arg7) = m ((c : Thread nD τ).loc main_arg7) :=
  Eq.trans (by show StableHlo.after hostOps1 (W2 m ρ c) (Proc.devRef .tc main_arg7) = _; after_results) (arg7_W2 m ρ c)
theorem arg7_W4 (c : Dev nD) : W4 m ρ c (Proc.devRef .tc main_arg7) = m ((c : Thread nD τ).loc main_arg7) :=
  Eq.trans (by show StableHlo.after hostOps1_1 (W3 m ρ c) (Proc.devRef .tc main_arg7) = _; after_results) (arg7_W3 m ρ c)
theorem arg7_W5 (c : Dev nD) : W5 m ρ c (Proc.devRef .tc main_arg7) = m ((c : Thread nD τ).loc main_arg7) :=
  Eq.trans (W5_of_ne m ρ c main_arg7 (by decide)) (arg7_W4 m ρ c)
theorem arg7_W6 (c : Dev nD) : W6 m ρ c (Proc.devRef .tc main_arg7) = m ((c : Thread nD τ).loc main_arg7) :=
  Eq.trans (W6_of_ne m ρ c main_arg7 (by decide)) (arg7_W5 m ρ c)
theorem arg7_W7 (c : Dev nD) : W7 m ρ c (Proc.devRef .tc main_arg7) = m ((c : Thread nD τ).loc main_arg7) :=
  Eq.trans (by show StableHlo.after hostOps3 (W6 m ρ c) (Proc.devRef .tc main_arg7) = _; after_results) (arg7_W6 m ρ c)
theorem arg7_W8 (c : Dev nD) : W8 m ρ c (Proc.devRef .tc main_arg7) = m ((c : Thread nD τ).loc main_arg7) :=
  Eq.trans (by show StableHlo.after hostOps3_1 (W7 m ρ c) (Proc.devRef .tc main_arg7) = _; after_results) (arg7_W7 m ρ c)
theorem arg7_W9 (c : Dev nD) : W9 m ρ c (Proc.devRef .tc main_arg7) = m ((c : Thread nD τ).loc main_arg7) :=
  Eq.trans (W9_of_ne m ρ c main_arg7 (by decide)) (arg7_W8 m ρ c)
theorem arg7_W10 (c : Dev nD) : W10 m ρ c (Proc.devRef .tc main_arg7) = m ((c : Thread nD τ).loc main_arg7) :=
  Eq.trans (W10_of_ne m ρ c main_arg7 (by decide)) (arg7_W9 m ρ c)
theorem arg7_W11 (c : Dev nD) : W11 m ρ c (Proc.devRef .tc main_arg7) = m ((c : Thread nD τ).loc main_arg7) :=
  Eq.trans (by show StableHlo.after hostOps5 (W10 m ρ c) (Proc.devRef .tc main_arg7) = _; after_results) (arg7_W10 m ρ c)

/-! ## The hidden features between their two readers, and the first result to the end -/

theorem hidden_W6 (c : Dev nD) : W6 m ρ c (Proc.devRef .tc main_v10) = W5 m ρ c (Proc.devRef .tc main_v10) :=
  (W6_arr m ρ c 0).trans (((dat2 (V5 m ρ) c).arrAt_in 0 rfl _).trans (A_eq2 (V5 m ρ) c 0))
theorem hidden_W7 (c : Dev nD) : W7 m ρ c (Proc.devRef .tc main_v10) = W5 m ρ c (Proc.devRef .tc main_v10) :=
  Eq.trans (by show StableHlo.after hostOps3 (W6 m ρ c) (Proc.devRef .tc main_v10) = _; after_results) (hidden_W6 m ρ c)
theorem hidden_W8 (c : Dev nD) : W8 m ρ c (Proc.devRef .tc main_v10) = W5 m ρ c (Proc.devRef .tc main_v10) :=
  Eq.trans (by show StableHlo.after hostOps3_1 (W7 m ρ c) (Proc.devRef .tc main_v10) = _; after_results) (hidden_W7 m ρ c)
theorem hidden_W9 (c : Dev nD) : W9 m ρ c (Proc.devRef .tc main_v10) = W5 m ρ c (Proc.devRef .tc main_v10) :=
  Eq.trans (W9_of_ne m ρ c main_v10 (by decide)) (hidden_W8 m ρ c)

theorem mean_W10 (c : Dev nD) : W10 m ρ c (Proc.devRef .tc main_v17) = W9 m ρ c (Proc.devRef .tc main_v17) :=
  (W10_of_ne m ρ c main_v17 (by decide))
theorem mean_W11 (c : Dev nD) : W11 m ρ c (Proc.devRef .tc main_v17) = W9 m ρ c (Proc.devRef .tc main_v17) :=
  Eq.trans (by show StableHlo.after hostOps5 (W10 m ρ c) (Proc.devRef .tc main_v17) = _; after_results) (mean_W10 m ρ c)
theorem mean_W12 (c : Dev nD) : W12 m ρ c (Proc.devRef .tc main_v17) = W9 m ρ c (Proc.devRef .tc main_v17) :=
  Eq.trans (by show StableHlo.after hostOps5_1 (W11 m ρ c) (Proc.devRef .tc main_v17) = _; after_results) (mean_W11 m ρ c)
theorem mean_W13 (c : Dev nD) : W13 m ρ c (Proc.devRef .tc main_v17) = W9 m ρ c (Proc.devRef .tc main_v17) :=
  Eq.trans (W13_of_ne m ρ c main_v17 (by decide)) (mean_W12 m ρ c)

end Cert.KernelIdeal.Walks

end
-- ==== Proof.Stretches.lean ====
/-
  What each stretch of host operations between the regions computes, from whatever contents it starts at.
-/
import proofs.«412450_j44203803410712_2_alg».proof.Proof.Gen.KernelIdeal.Frame
import Idealize.ShloMosaic.Lib.StableHlo.Run

set_option maxRecDepth 16384

noncomputable section

namespace Cert.KernelIdeal.Walks

open Idealize.ShloMosaic Idealize.ShloMosaic.TcCoe Idealize.ShloMosaic.StableHlo
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-! ## What each host stretch computes -/

/-- The start-index column of the row gather: a negative source counts from the end. -/
abbrev wrapColumn (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The range test of the row gather on a start-index column, per edge. -/
abbrev columnInBounds (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_
/-- The rows of a 128-column table gathered by a start-index column, a fill where the range test fails. -/
abbrev filledBy128 (h : FVec F S100000x128 .f32) (col : IVec S1600000x1 32) : FVec F S1600000x128 .f32 :=
  select (broadcastInDim S1600000x128 ![0] bcast_S1600000_S1600000x128_0 (columnInBounds col))
    (Host.gather gather_S100000x128_S1600000x1_S1600000x128_1_0_n_n_0_1_1128 h col)
    (broadcastInDim S1600000x128 ![] bcast_S_S1600000x128 (constant S_ .f32 0x7FC00000#32))
/-- The same over a 64-column table. -/
abbrev filledBy64 (h : FVec F S100000x64 .f32) (col : IVec S1600000x1 32) : FVec F S1600000x64 .f32 :=
  select (broadcastInDim S1600000x64 ![0] bcast_S1600000_S1600000x64_0 (columnInBounds col))
    (Host.gather gather_S100000x64_S1600000x1_S1600000x64_1_0_n_n_0_1_164 h col)
    (broadcastInDim S1600000x64 ![] bcast_S_S1600000x64 (constant S_ .f32 0x7FC00000#32))
/-- Gathered by source: the column is the wrapped source row. -/
abbrev filledRows128 (h : FVec F S100000x128 .f32) (s : IVec S1600000 32) : FVec F S1600000x128 .f32 := filledBy128 h (wrapColumn s)
abbrev filledRows64 (h : FVec F S100000x64 .f32) (s : IVec S1600000 32) : FVec F S1600000x64 .f32 := filledBy64 h (wrapColumn s)
/-- The messages summed onto their destination nodes, 128 columns. -/
abbrev summed128 (d : IVec S1600000 32) (u : FVec F S1600000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d) u
/-- The same, 64 columns. -/
abbrev summed64 (d : IVec S1600000 32) (u : FVec F S1600000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d) u

/-- The contents after two stretches in a row. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- The operations of gather stretch 1 that build the start-index column. -/
abbrev columnOps1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1600000, .i32⟩) (broadcastInDim S1600000 ![] bcast_S_S1600000),
    StableHlo.TRef.binary (.of main_v1 : StableHlo.TRef sig ⟨S1600000, .i32⟩) (.of main_call0_v0 : StableHlo.TRef sig ⟨S1600000, .i32⟩) (.of main_call0_v1 : StableHlo.TRef sig ⟨S1600000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1600000, .i32⟩) (broadcastInDim S1600000 ![] bcast_S_S1600000),
    StableHlo.TRef.binary (.of main_v1 : StableHlo.TRef sig ⟨S1600000, .i32⟩) (.of main_call0_v2 : StableHlo.TRef sig ⟨S1600000, .i32⟩) (.of main_call0_v3 : StableHlo.TRef sig ⟨S1600000, .i32⟩) addi,
    StableHlo.TRef.ternary (.of main_call0_v1 : StableHlo.TRef sig ⟨S1600000, .i1⟩) (.of main_call0_v3 : StableHlo.TRef sig ⟨S1600000, .i32⟩) (.of main_v1 : StableHlo.TRef sig ⟨S1600000, .i32⟩) (.of main_call0_v4 : StableHlo.TRef sig ⟨S1600000, .i32⟩) select,
    StableHlo.TRef.unary main_call0_call0.v0 (.of main_call0_v5 : StableHlo.TRef sig ⟨S1600000x1, .i32⟩) (broadcastInDim S1600000x1 ![0] bcast_S1600000_S1600000x1_0) ]
/-- The rest of gather stretch 1 — the range test, the gather, the select — over any reduction `R` and any gather `G`. -/
abbrev fillOps1 (R : (⟨S1600000x1, .i1⟩ : BufTy).Contents (Elt F) → (⟨S_, .i1⟩ : BufTy).Contents (Elt F) → (⟨S1600000, .i1⟩ : BufTy).Contents (Elt F))
    (G : (⟨S100000x128, .f32⟩ : BufTy).Contents (Elt F) → (⟨S1600000x1, .i32⟩ : BufTy).Contents (Elt F) → (⟨S1600000x128, .f32⟩ : BufTy).Contents (Elt F)) : List (HloOp τ sig (Elt F)) :=
  [ StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1600000x1, .i32⟩) (broadcastInDim S1600000x1 ![] bcast_S_S1600000x1),
    StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
    StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
    StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi,
    StableHlo.TRef.nullary (.of main_call0_c_3 : StableHlo.TRef sig ⟨S_, .i1⟩) (constantI S_ 1 1#1),
    StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) R,
    StableHlo.TRef.binary (.of main_v4 : StableHlo.TRef sig ⟨S100000x128, .f32⟩) (.of main_call0_v5 : StableHlo.TRef sig ⟨S1600000x1, .i32⟩) (.of main_call0_v13 : StableHlo.TRef sig ⟨S1600000x128, .f32⟩) G,
    StableHlo.TRef.unary (.of main_call0_v12 : StableHlo.TRef sig ⟨S1600000, .i1⟩) (.of main_call0_v14 : StableHlo.TRef sig ⟨S1600000x128, .i1⟩) (broadcastInDim S1600000x128 ![0] bcast_S1600000_S1600000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1600000x128, .f32⟩) (broadcastInDim S1600000x128 ![] bcast_S_S1600000x128),
    StableHlo.TRef.ternary (.of main_call0_v14 : StableHlo.TRef sig ⟨S1600000x128, .i1⟩) (.of main_call0_v13 : StableHlo.TRef sig ⟨S1600000x128, .f32⟩) (.of main_call0_v15 : StableHlo.TRef sig ⟨S1600000x128, .f32⟩) (.of main_v5 : StableHlo.TRef sig ⟨S1600000x128, .f32⟩) select ]
theorem hostOps1_split : (hostOps1 : List (HloOp τ sig (Elt F)))
    = columnOps1 ++ fillOps1 (fun x v => Host.reduce IntOp.andi x v reducesTo_S1600000x1_S1600000_d1 h_S_) (fun x i => Host.gather gather_S100000x128_S1600000x1_S1600000x128_1_0_n_n_0_1_1128 x i) := rfl

theorem column1_of (W : Valuation τ sig (Elt F)) : StableHlo.after columnOps1 W (Proc.devRef .tc main_call0_v5)
    = wrapColumn (W (Proc.devRef .tc main_v1)) := by
  after_results_simp <;> rfl
theorem table1_kept (W : Valuation τ sig (Elt F)) : StableHlo.after columnOps1 W (Proc.devRef .tc main_v4)
    = W (Proc.devRef .tc main_v4) := by
  after_results_simp <;> rfl
/-- The second half read with the reduction and the gather left as they are named. -/
theorem fill1_gen (R : (⟨S1600000x1, .i1⟩ : BufTy).Contents (Elt F) → (⟨S_, .i1⟩ : BufTy).Contents (Elt F) → (⟨S1600000, .i1⟩ : BufTy).Contents (Elt F))
    (G : (⟨S100000x128, .f32⟩ : BufTy).Contents (Elt F) → (⟨S1600000x1, .i32⟩ : BufTy).Contents (Elt F) → (⟨S1600000x128, .f32⟩ : BufTy).Contents (Elt F)) (W : Valuation τ sig (Elt F)) :
    StableHlo.after (fillOps1 R G) W (Proc.devRef .tc main_v5)
      = select (broadcastInDim S1600000x128 ![0] bcast_S1600000_S1600000x128_0
          (R (andi (cmpi .sge (W (Proc.devRef .tc main_call0_v5)) (broadcastInDim S1600000x1 ![] bcast_S_S1600000x1 (constantI S_ 32 0#32)))
                (cmpi .sle (W (Proc.devRef .tc main_call0_v5)) (broadcastInDim S1600000x1 ![0, 1] bcast_S1x1_S1600000x1_0_1 (broadcastInDim S1x1 ![1] bcast_S1_S1x1_1 (constantI S1 32 99999#32)))))
             (constantI S_ 1 1#1)))
          (G (W (Proc.devRef .tc main_v4)) (W (Proc.devRef .tc main_call0_v5)))
          (broadcastInDim S1600000x128 ![] bcast_S_S1600000x128 (constant S_ .f32 0x7FC00000#32)) := by
  after_results_simp <;> rfl
theorem fill1_of (W : Valuation τ sig (Elt F)) :
    StableHlo.after (fillOps1 (fun x v => Host.reduce IntOp.andi x v reducesTo_S1600000x1_S1600000_d1 h_S_) (fun x i => Host.gather gather_S100000x128_S1600000x1_S1600000x128_1_0_n_n_0_1_1128 x i)) W (Proc.devRef .tc main_v5)
      = filledBy128 (W (Proc.devRef .tc main_v4)) (W (Proc.devRef .tc main_call0_v5)) :=
  fill1_gen _ _ W
/-- Gather stretch 1, from any contents. -/
theorem messages1_of (W : Valuation τ sig (Elt F)) : StableHlo.after hostOps1 W (Proc.devRef .tc main_v5)
    = filledRows128 (W (Proc.devRef .tc main_v4)) (W (Proc.devRef .tc main_v1)) := by
  rw [hostOps1_split, after_append, fill1_of, column1_of, table1_kept]
theorem sums1_of (W : Valuation τ sig (Elt F)) : StableHlo.after hostOps1_1 W (Proc.devRef .tc main_v8)
    = summed128 (W (Proc.devRef .tc main_v3)) (W (Proc.devRef .tc main_v5)) := by
  after_results_simp <;> rfl
theorem biasRow1_of (W : Valuation τ sig (Elt F)) : StableHlo.after hostOps1_1 W (Proc.devRef .tc main_v9)
    = shapeCast S1x128 (W (Proc.devRef .tc main_arg3)) shapeCasts_S128_S1x128 := by
  after_results_simp <;> rfl

/-- The operations of gather stretch 2 that build the start-index column. -/
abbrev columnOps2 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1600000, .i32⟩) (broadcastInDim S1600000 ![] bcast_S_S1600000),
    StableHlo.TRef.binary (.of main_v1 : StableHlo.TRef sig ⟨S1600000, .i32⟩) (.of main_call1_v0 : StableHlo.TRef sig ⟨S1600000, .i32⟩) (.of main_call1_v1 : StableHlo.TRef sig ⟨S1600000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S1600000, .i32⟩) (broadcastInDim S1600000 ![] bcast_S_S1600000),
    StableHlo.TRef.binary (.of main_v1 : StableHlo.TRef sig ⟨S1600000, .i32⟩) (.of main_call1_v2 : StableHlo.TRef sig ⟨S1600000, .i32⟩) (.of main_call1_v3 : StableHlo.TRef sig ⟨S1600000, .i32⟩) addi,
    StableHlo.TRef.ternary (.of main_call1_v1 : StableHlo.TRef sig ⟨S1600000, .i1⟩) (.of main_call1_v3 : StableHlo.TRef sig ⟨S1600000, .i32⟩) (.of main_v1 : StableHlo.TRef sig ⟨S1600000, .i32⟩) (.of main_call1_v4 : StableHlo.TRef sig ⟨S1600000, .i32⟩) select,
    StableHlo.TRef.unary main_call1_call0.v0 (.of main_call1_v5 : StableHlo.TRef sig ⟨S1600000x1, .i32⟩) (broadcastInDim S1600000x1 ![0] bcast_S1600000_S1600000x1_0) ]
/-- The rest of gather stretch 2 — the range test, the gather, the select — over any reduction `R` and any gather `G`. -/
abbrev fillOps2 (R : (⟨S1600000x1, .i1⟩ : BufTy).Contents (Elt F) → (⟨S_, .i1⟩ : BufTy).Contents (Elt F) → (⟨S1600000, .i1⟩ : BufTy).Contents (Elt F))
    (G : (⟨S100000x64, .f32⟩ : BufTy).Contents (Elt F) → (⟨S1600000x1, .i32⟩ : BufTy).Contents (Elt F) → (⟨S1600000x64, .f32⟩ : BufTy).Contents (Elt F)) : List (HloOp τ sig (Elt F)) :=
  [ StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1600000x1, .i32⟩) (broadcastInDim S1600000x1 ![] bcast_S_S1600000x1),
    StableHlo.TRef.binary (.of main_call1_v5 : StableHlo.TRef sig ⟨S1600000x1, .i32⟩) (.of main_call1_v6 : StableHlo.TRef sig ⟨S1600000x1, .i32⟩) (.of main_call1_v7 : StableHlo.TRef sig ⟨S1600000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1600000x1, .i32⟩) (broadcastInDim S1600000x1 ![0, 1] bcast_S1x1_S1600000x1_0_1),
    StableHlo.TRef.binary (.of main_call1_v5 : StableHlo.TRef sig ⟨S1600000x1, .i32⟩) (.of main_call1_v9 : StableHlo.TRef sig ⟨S1600000x1, .i32⟩) (.of main_call1_v10 : StableHlo.TRef sig ⟨S1600000x1, .i1⟩) (cmpi .sle),
    StableHlo.TRef.binary (.of main_call1_v7 : StableHlo.TRef sig ⟨S1600000x1, .i1⟩) (.of main_call1_v10 : StableHlo.TRef sig ⟨S1600000x1, .i1⟩) (.of main_call1_v11 : StableHlo.TRef sig ⟨S1600000x1, .i1⟩) andi,
    StableHlo.TRef.nullary (.of main_call1_c_3 : StableHlo.TRef sig ⟨S_, .i1⟩) (constantI S_ 1 1#1),
    StableHlo.TRef.binary (.of main_call1_v11 : StableHlo.TRef sig ⟨S1600000x1, .i1⟩) (.of main_call1_c_3 : StableHlo.TRef sig ⟨S_, .i1⟩) (.of main_call1_v12 : StableHlo.TRef sig ⟨S1600000, .i1⟩) R,
    StableHlo.TRef.binary (.of main_v11 : StableHlo.TRef sig ⟨S100000x64, .f32⟩) (.of main_call1_v5 : StableHlo.TRef sig ⟨S1600000x1, .i32⟩) (.of main_call1_v13 : StableHlo.TRef sig ⟨S1600000x64, .f32⟩) G,
    StableHlo.TRef.unary (.of main_call1_v12 : StableHlo.TRef sig ⟨S1600000, .i1⟩) (.of main_call1_v14 : StableHlo.TRef sig ⟨S1600000x64, .i1⟩) (broadcastInDim S1600000x64 ![0] bcast_S1600000_S1600000x64_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S1600000x64, .f32⟩) (broadcastInDim S1600000x64 ![] bcast_S_S1600000x64),
    StableHlo.TRef.ternary (.of main_call1_v14 : StableHlo.TRef sig ⟨S1600000x64, .i1⟩) (.of main_call1_v13 : StableHlo.TRef sig ⟨S1600000x64, .f32⟩) (.of main_call1_v15 : StableHlo.TRef sig ⟨S1600000x64, .f32⟩) (.of main_v12 : StableHlo.TRef sig ⟨S1600000x64, .f32⟩) select ]
theorem hostOps3_split : (hostOps3 : List (HloOp τ sig (Elt F)))
    = columnOps2 ++ fillOps2 (fun x v => Host.reduce IntOp.andi x v reducesTo_S1600000x1_S1600000_d1 h_S_) (fun x i => Host.gather gather_S100000x64_S1600000x1_S1600000x64_1_0_n_n_0_1_164 x i) := rfl

theorem column2_of (W : Valuation τ sig (Elt F)) : StableHlo.after columnOps2 W (Proc.devRef .tc main_call1_v5)
    = wrapColumn (W (Proc.devRef .tc main_v1)) := by
  after_results_simp <;> rfl
theorem table2_kept (W : Valuation τ sig (Elt F)) : StableHlo.after columnOps2 W (Proc.devRef .tc main_v11)
    = W (Proc.devRef .tc main_v11) := by
  after_results_simp <;> rfl
/-- The second half read with the reduction and the gather left as they are named. -/
theorem fill2_gen (R : (⟨S1600000x1, .i1⟩ : BufTy).Contents (Elt F) → (⟨S_, .i1⟩ : BufTy).Contents (Elt F) → (⟨S1600000, .i1⟩ : BufTy).Contents (Elt F))
    (G : (⟨S100000x64, .f32⟩ : BufTy).Contents (Elt F) → (⟨S1600000x1, .i32⟩ : BufTy).Contents (Elt F) → (⟨S1600000x64, .f32⟩ : BufTy).Contents (Elt F)) (W : Valuation τ sig (Elt F)) :
    StableHlo.after (fillOps2 R G) W (Proc.devRef .tc main_v12)
      = select (broadcastInDim S1600000x64 ![0] bcast_S1600000_S1600000x64_0
          (R (andi (cmpi .sge (W (Proc.devRef .tc main_call1_v5)) (broadcastInDim S1600000x1 ![] bcast_S_S1600000x1 (constantI S_ 32 0#32)))
                (cmpi .sle (W (Proc.devRef .tc main_call1_v5)) (broadcastInDim S1600000x1 ![0, 1] bcast_S1x1_S1600000x1_0_1 (broadcastInDim S1x1 ![1] bcast_S1_S1x1_1 (constantI S1 32 99999#32)))))
             (constantI S_ 1 1#1)))
          (G (W (Proc.devRef .tc main_v11)) (W (Proc.devRef .tc main_call1_v5)))
          (broadcastInDim S1600000x64 ![] bcast_S_S1600000x64 (constant S_ .f32 0x7FC00000#32)) := by
  after_results_simp <;> rfl
theorem fill2_of (W : Valuation τ sig (Elt F)) :
    StableHlo.after (fillOps2 (fun x v => Host.reduce IntOp.andi x v reducesTo_S1600000x1_S1600000_d1 h_S_) (fun x i => Host.gather gather_S100000x64_S1600000x1_S1600000x64_1_0_n_n_0_1_164 x i)) W (Proc.devRef .tc main_v12)
      = filledBy64 (W (Proc.devRef .tc main_v11)) (W (Proc.devRef .tc main_call1_v5)) :=
  fill2_gen _ _ W
/-- Gather stretch 2, from any contents. -/
theorem messages2_of (W : Valuation τ sig (Elt F)) : StableHlo.after hostOps3 W (Proc.devRef .tc main_v12)
    = filledRows64 (W (Proc.devRef .tc main_v11)) (W (Proc.devRef .tc main_v1)) := by
  rw [hostOps3_split, after_append, fill2_of, column2_of, table2_kept]
theorem sums2_of (W : Valuation τ sig (Elt F)) : StableHlo.after hostOps3_1 W (Proc.devRef .tc main_v15)
    = summed64 (W (Proc.devRef .tc main_v3)) (W (Proc.devRef .tc main_v12)) := by
  after_results_simp <;> rfl
theorem biasRow2_of (W : Valuation τ sig (Elt F)) : StableHlo.after hostOps3_1 W (Proc.devRef .tc main_v16)
    = shapeCast S1x64 (W (Proc.devRef .tc main_arg5)) shapeCasts_S64_S1x64 := by
  after_results_simp <;> rfl

/-- The operations of gather stretch 3 that build the start-index column. -/
abbrev columnOps3 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S1600000, .i32⟩) (broadcastInDim S1600000 ![] bcast_S_S1600000),
    StableHlo.TRef.binary (.of main_v1 : StableHlo.TRef sig ⟨S1600000, .i32⟩) (.of main_call2_v0 : StableHlo.TRef sig ⟨S1600000, .i32⟩) (.of main_call2_v1 : StableHlo.TRef sig ⟨S1600000, .i1⟩) (cmpi .slt),
    StableHlo.TRef.nullary (.of main_call2_c_0 : StableHlo.TRef sig ⟨S_, .i32⟩) (constantI S_ 32 100000#32),
    StableHlo.TRef.unary (.of main_call2_c_0 : StableHlo.TRef sig ⟨S_, .i32⟩) (.of main_call2_v2 : StableHlo.TRef sig ⟨S1600000, .i32⟩) (broadcastInDim S1600000 ![] bcast_S_S1600000),
    StableHlo.TRef.binary (.of main_v1 : StableHlo.TRef sig ⟨S1600000, .i32⟩) (.of main_call2_v2 : StableHlo.TRef sig ⟨S1600000, .i32⟩) (.of main_call2_v3 : StableHlo.TRef sig ⟨S1600000, .i32⟩) addi,
    StableHlo.TRef.ternary (.of main_call2_v1 : StableHlo.TRef sig ⟨S1600000, .i1⟩) (.of main_call2_v3 : StableHlo.TRef sig ⟨S1600000, .i32⟩) (.of main_v1 : StableHlo.TRef sig ⟨S1600000, .i32⟩) (.of main_call2_v4 : StableHlo.TRef sig ⟨S1600000, .i32⟩) select,
    StableHlo.TRef.unary main_call2_call0.v0 (.of main_call2_v5 : StableHlo.TRef sig ⟨S1600000x1, .i32⟩) (broadcastInDim S1600000x1 ![0] bcast_S1600000_S1600000x1_0) ]
/-- The rest of gather stretch 3 — the range test, the gather, the select — over any reduction `R` and any gather `G`. -/
abbrev fillOps3 (R : (⟨S1600000x1, .i1⟩ : BufTy).Contents (Elt F) → (⟨S_, .i1⟩ : BufTy).Contents (Elt F) → (⟨S1600000, .i1⟩ : BufTy).Contents (Elt F))
    (G : (⟨S100000x64, .f32⟩ : BufTy).Contents (Elt F) → (⟨S1600000x1, .i32⟩ : BufTy).Contents (Elt F) → (⟨S1600000x64, .f32⟩ : BufTy).Contents (Elt F)) : List (HloOp τ sig (Elt F)) :=
  [ StableHlo.TRef.nullary (.of main_call2_c_1 : StableHlo.TRef sig ⟨S1, .i32⟩) (constantI S1 32 99999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S1600000x1, .i32⟩) (broadcastInDim S1600000x1 ![] bcast_S_S1600000x1),
    StableHlo.TRef.binary (.of main_call2_v5 : StableHlo.TRef sig ⟨S1600000x1, .i32⟩) (.of main_call2_v6 : StableHlo.TRef sig ⟨S1600000x1, .i32⟩) (.of main_call2_v7 : StableHlo.TRef sig ⟨S1600000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S1600000x1, .i32⟩) (broadcastInDim S1600000x1 ![0, 1] bcast_S1x1_S1600000x1_0_1),
    StableHlo.TRef.binary (.of main_call2_v5 : StableHlo.TRef sig ⟨S1600000x1, .i32⟩) (.of main_call2_v9 : StableHlo.TRef sig ⟨S1600000x1, .i32⟩) (.of main_call2_v10 : StableHlo.TRef sig ⟨S1600000x1, .i1⟩) (cmpi .sle),
    StableHlo.TRef.binary (.of main_call2_v7 : StableHlo.TRef sig ⟨S1600000x1, .i1⟩) (.of main_call2_v10 : StableHlo.TRef sig ⟨S1600000x1, .i1⟩) (.of main_call2_v11 : StableHlo.TRef sig ⟨S1600000x1, .i1⟩) andi,
    StableHlo.TRef.nullary (.of main_call2_c_3 : StableHlo.TRef sig ⟨S_, .i1⟩) (constantI S_ 1 1#1),
    StableHlo.TRef.binary (.of main_call2_v11 : StableHlo.TRef sig ⟨S1600000x1, .i1⟩) (.of main_call2_c_3 : StableHlo.TRef sig ⟨S_, .i1⟩) (.of main_call2_v12 : StableHlo.TRef sig ⟨S1600000, .i1⟩) R,
    StableHlo.TRef.binary (.of main_v18 : StableHlo.TRef sig ⟨S100000x64, .f32⟩) (.of main_call2_v5 : StableHlo.TRef sig ⟨S1600000x1, .i32⟩) (.of main_call2_v13 : StableHlo.TRef sig ⟨S1600000x64, .f32⟩) G,
    StableHlo.TRef.unary (.of main_call2_v12 : StableHlo.TRef sig ⟨S1600000, .i1⟩) (.of main_call2_v14 : StableHlo.TRef sig ⟨S1600000x64, .i1⟩) (broadcastInDim S1600000x64 ![0] bcast_S1600000_S1600000x64_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S1600000x64, .f32⟩) (broadcastInDim S1600000x64 ![] bcast_S_S1600000x64),
    StableHlo.TRef.ternary (.of main_call2_v14 : StableHlo.TRef sig ⟨S1600000x64, .i1⟩) (.of main_call2_v13 : StableHlo.TRef sig ⟨S1600000x64, .f32⟩) (.of main_call2_v15 : StableHlo.TRef sig ⟨S1600000x64, .f32⟩) (.of main_v19 : StableHlo.TRef sig ⟨S1600000x64, .f32⟩) select ]
theorem hostOps5_split : (hostOps5 : List (HloOp τ sig (Elt F)))
    = columnOps3 ++ fillOps3 (fun x v => Host.reduce IntOp.andi x v reducesTo_S1600000x1_S1600000_d1 h_S_) (fun x i => Host.gather gather_S100000x64_S1600000x1_S1600000x64_1_0_n_n_0_1_164 x i) := rfl

theorem column3_of (W : Valuation τ sig (Elt F)) : StableHlo.after columnOps3 W (Proc.devRef .tc main_call2_v5)
    = wrapColumn (W (Proc.devRef .tc main_v1)) := by
  after_results_simp <;> rfl
theorem table3_kept (W : Valuation τ sig (Elt F)) : StableHlo.after columnOps3 W (Proc.devRef .tc main_v18)
    = W (Proc.devRef .tc main_v18) := by
  after_results_simp <;> rfl
/-- The second half read with the reduction and the gather left as they are named. -/
theorem fill3_gen (R : (⟨S1600000x1, .i1⟩ : BufTy).Contents (Elt F) → (⟨S_, .i1⟩ : BufTy).Contents (Elt F) → (⟨S1600000, .i1⟩ : BufTy).Contents (Elt F))
    (G : (⟨S100000x64, .f32⟩ : BufTy).Contents (Elt F) → (⟨S1600000x1, .i32⟩ : BufTy).Contents (Elt F) → (⟨S1600000x64, .f32⟩ : BufTy).Contents (Elt F)) (W : Valuation τ sig (Elt F)) :
    StableHlo.after (fillOps3 R G) W (Proc.devRef .tc main_v19)
      = select (broadcastInDim S1600000x64 ![0] bcast_S1600000_S1600000x64_0
          (R (andi (cmpi .sge (W (Proc.devRef .tc main_call2_v5)) (broadcastInDim S1600000x1 ![] bcast_S_S1600000x1 (constantI S_ 32 0#32)))
                (cmpi .sle (W (Proc.devRef .tc main_call2_v5)) (broadcastInDim S1600000x1 ![0, 1] bcast_S1x1_S1600000x1_0_1 (broadcastInDim S1x1 ![1] bcast_S1_S1x1_1 (constantI S1 32 99999#32)))))
             (constantI S_ 1 1#1)))
          (G (W (Proc.devRef .tc main_v18)) (W (Proc.devRef .tc main_call2_v5)))
          (broadcastInDim S1600000x64 ![] bcast_S_S1600000x64 (constant S_ .f32 0x7FC00000#32)) := by
  after_results_simp <;> rfl
theorem fill3_of (W : Valuation τ sig (Elt F)) :
    StableHlo.after (fillOps3 (fun x v => Host.reduce IntOp.andi x v reducesTo_S1600000x1_S1600000_d1 h_S_) (fun x i => Host.gather gather_S100000x64_S1600000x1_S1600000x64_1_0_n_n_0_1_164 x i)) W (Proc.devRef .tc main_v19)
      = filledBy64 (W (Proc.devRef .tc main_v18)) (W (Proc.devRef .tc main_call2_v5)) :=
  fill3_gen _ _ W
/-- Gather stretch 3, from any contents. -/
theorem messages3_of (W : Valuation τ sig (Elt F)) : StableHlo.after hostOps5 W (Proc.devRef .tc main_v19)
    = filledRows64 (W (Proc.devRef .tc main_v18)) (W (Proc.devRef .tc main_v1)) := by
  rw [hostOps5_split, after_append, fill3_of, column3_of, table3_kept]
theorem sums3_of (W : Valuation τ sig (Elt F)) : StableHlo.after hostOps5_1 W (Proc.devRef .tc main_v22)
    = summed64 (W (Proc.devRef .tc main_v3)) (W (Proc.devRef .tc main_v19)) := by
  after_results_simp <;> rfl
theorem biasRow3_of (W : Valuation τ sig (Elt F)) : StableHlo.after hostOps5_1 W (Proc.devRef .tc main_v23)
    = shapeCast S1x64 (W (Proc.devRef .tc main_arg7)) shapeCasts_S64_S1x64 := by
  after_results_simp <;> rfl

theorem messages1 (c : Dev nD) : W3 m ρ c (Proc.devRef .tc main_v5)
    = filledRows128 (W2 m ρ c (Proc.devRef .tc main_v4)) (W2 m ρ c (Proc.devRef .tc main_v1)) := messages1_of (W2 m ρ c)
theorem sums1 (c : Dev nD) : W4 m ρ c (Proc.devRef .tc main_v8)
    = summed128 (W3 m ρ c (Proc.devRef .tc main_v3)) (W3 m ρ c (Proc.devRef .tc main_v5)) := sums1_of (W3 m ρ c)
theorem biasRow1 (c : Dev nD) : W4 m ρ c (Proc.devRef .tc main_v9)
    = shapeCast S1x128 (W3 m ρ c (Proc.devRef .tc main_arg3)) shapeCasts_S128_S1x128 := biasRow1_of (W3 m ρ c)
theorem messages2 (c : Dev nD) : W7 m ρ c (Proc.devRef .tc main_v12)
    = filledRows64 (W6 m ρ c (Proc.devRef .tc main_v11)) (W6 m ρ c (Proc.devRef .tc main_v1)) := messages2_of (W6 m ρ c)
theorem sums2 (c : Dev nD) : W8 m ρ c (Proc.devRef .tc main_v15)
    = summed64 (W7 m ρ c (Proc.devRef .tc main_v3)) (W7 m ρ c (Proc.devRef .tc main_v12)) := sums2_of (W7 m ρ c)
theorem biasRow2 (c : Dev nD) : W8 m ρ c (Proc.devRef .tc main_v16)
    = shapeCast S1x64 (W7 m ρ c (Proc.devRef .tc main_arg5)) shapeCasts_S64_S1x64 := biasRow2_of (W7 m ρ c)
theorem messages3 (c : Dev nD) : W11 m ρ c (Proc.devRef .tc main_v19)
    = filledRows64 (W10 m ρ c (Proc.devRef .tc main_v18)) (W10 m ρ c (Proc.devRef .tc main_v1)) := messages3_of (W10 m ρ c)
theorem sums3 (c : Dev nD) : W12 m ρ c (Proc.devRef .tc main_v22)
    = summed64 (W11 m ρ c (Proc.devRef .tc main_v3)) (W11 m ρ c (Proc.devRef .tc main_v19)) := sums3_of (W11 m ρ c)
theorem biasRow3 (c : Dev nD) : W12 m ρ c (Proc.devRef .tc main_v23)
    = shapeCast S1x64 (W11 m ρ c (Proc.devRef .tc main_arg7)) shapeCasts_S64_S1x64 := biasRow3_of (W11 m ρ c)

end Cert.KernelIdeal.Walks

end
-- ==== Proof.LibPlainMatmul.lean ====
/-
  A general lemma: a matrix product `[M, K] × [K, N]` read at an index on the extended reals — the kernel's, into a
  zero accumulator, and the host's `dot_general`.

  The dimension numbers contract axis 1 of the left operand with axis 0 of the right one, keep axis 0 of the left and
  axis 1 of the right, and have no batch axis. Entry `(p, q)` of the product is then `∑ k < K, l[p, k] · r[k, q]`:
  the sum over the one contracted axis, re-indexed by that axis's coordinate. Stated for any record with those
  dimension numbers, whatever the sizes and the operands' float formats.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

namespace PlainMatmul

/-- Those dimension numbers as a literal record; `wf` are their conditions. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the result's row. -/
theorem lhs_row (i : (⟨2, ![M, N]⟩ : Shape).Idx) (q : (plainDims M K N wf).contr.Idx) :
    ((plainDims M K N wf).lhsIdx i q 0).val = (i 0).val := by
  rw [DotDims.lhsIdx, dif_neg (show ¬(0 : Fin 2) ∈ (plainDims M K N wf).lhsBatch from List.not_mem_nil),
    dif_pos (show (0 : Fin 2) ∈ (plainDims M K N wf).lhsNonContracting from List.mem_singleton.mpr rfl)]
  rfl

/-- The left operand's column is the contracted coordinate. -/
theorem lhs_col (i : (⟨2, ![M, N]⟩ : Shape).Idx) (q : (plainDims M K N wf).contr.Idx) :
    ((plainDims M K N wf).lhsIdx i q 1).val = (q ⟨0, Nat.one_pos⟩).val :=
  (plainDims M K N wf).lhsIdx_val_of_single rfl i q

/-- The right operand's row is the contracted coordinate. -/
theorem rhs_row (i : (⟨2, ![M, N]⟩ : Shape).Idx) (q : (plainDims M K N wf).contr.Idx) :
    ((plainDims M K N wf).rhsIdx i q 0).val = (q ⟨0, Nat.one_pos⟩).val :=
  (plainDims M K N wf).rhsIdx_val_of_single rfl i q

/-- The right operand's column is the result's column. -/
theorem rhs_col (i : (⟨2, ![M, N]⟩ : Shape).Idx) (q : (plainDims M K N wf).contr.Idx) :
    ((plainDims M K N wf).rhsIdx i q 1).val = (i 1).val := by
  rw [DotDims.rhsIdx, dif_neg (show ¬(1 : Fin 2) ∈ (plainDims M K N wf).rhsBatch from List.not_mem_nil),
    dif_pos (show (1 : Fin 2) ∈ (plainDims M K N wf).rhsNonContracting from List.mem_singleton.mpr rfl)]
  rfl

/-- The product of the literal record at `(p, q)`. -/
theorem matmul_plainDims_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- The host's product of the literal record at `(p, q)`. -/
theorem dotGeneral_plainDims_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q) = ∑ k : Fin K, l (ix2 p k) * r (ix2 k q) := by
  rw [Ideal.dotGeneral_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

end PlainMatmul

open PlainMatmul

/-- THE PRODUCT READ AT `(p, q)`, for any record with the plain dimension numbers: `∑ k < K, l[p, k] · r[k, q]`. -/
theorem matmul_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at h1 h2 h3 h4 h5 h6
  subst h1 h2 h3 h4 h5 h6
  exact matmul_plainDims_apply wf prec l r p q

/-- THE HOST'S PRODUCT READ AT `(p, q)`, for any record with the plain dimension numbers, whatever its schedule key:
    the same sum. -/
theorem dotGeneral_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (l : FVec Ideal ⟨2, ![M, K]⟩ φ₁)
    (r : FVec Ideal ⟨2, ![K, N]⟩ φ₂) (p : Fin M) (q : Fin N) :
    FloatOps.dotGeneral d prec sched l r (ix2 p q) = ∑ k : Fin K, l (ix2 p k) * r (ix2 k q) := by
  obtain ⟨lc, rc, ln, rn, lb, rb, wf⟩ := d
  simp only at h1 h2 h3 h4 h5 h6
  subst h1 h2 h3 h4 h5 h6
  exact dotGeneral_plainDims_apply wf prec sched l r p q

end Cert.Lib

end
-- ==== Proof.Product0.lean ====
/-
  Region 0: the first linear transform, tiled over the node axis.

  The region walks twenty points along the rows. At point `t` the body multiplies rows `5000·t … 5000·t + 4999` of the
  node features by the whole weight matrix into a zero accumulator, and the point's write-back puts that `[5000, 128]`
  block at the same rows of the result. On the extended reals a change of float format is the identity and a product
  into a zero accumulator is the plain sum over the contracted axis, so entry `(p, q)` of the block is
  `∑ k, nodes[5000·t + p, k] · weights[k, q]`: entry `(5000·t + p, q)` of the whole product. Every row `r` lies in
  the block of point `r / 5000`, so after the twenty write-backs the result array is the whole product.
-/
import proofs.«412450_j44203803410712_2_alg».proof.Proof.Gen.KernelIdeal.Frame
import proofs.«412450_j44203803410712_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Product0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem wholeWF : DotDims.WF S100000x256 S256x128 S100000x128 [1] [0] [0] [1] [] [] := by decide

/-- The node features as the region finds them. -/
abbrev nodes (c : Dev nD) : FVec Ideal S100000x256 .f32 := V c main_arg0
/-- The layer's weights as the region finds them. -/
abbrev weights (c : Dev nD) : FVec Ideal S256x128 .f32 := V c main_arg2

/-- The origin of a block, spelt as the constant zero. -/
theorem origin : (![0, 0] : Fin 2 → Nat) = fun _ => 0 :=
  funext fun a => by match a with | ⟨0, _⟩ => rfl | ⟨1, _⟩ => rfl

/-- ONE BLOCK'S PRODUCT AT AN ENTRY: rounding to the narrower format changes nothing on the extended reals, and the
    product into the zero accumulator is the sum over the contracted axis. -/
theorem block_product (x0 : Vec Ideal S5000x256 .f32) (x1 : Vec Ideal S256x128 .f32) (p : Fin 5000) (q : Fin 128) :
    (k0_pay1 (F := Ideal) x0 x1) (ix2 p q) = ∑ k : Fin 256, x0 (ix2 p k) * x1 (ix2 k q) := by
  unfold k0_pay1
  exact Cert.Lib.matmul_plain_apply dot_S5000x256_S256x128_S5000x128_1_0_0_1_n_n rfl rfl rfl rfl rfl rfl none
    (truncf .bf16 x0 bitsLt_bf16_f32) (truncf .bf16 x1 bitsLt_bf16_f32) p q

/-- The printed index maps over the grid: the node block and the result block of point `t` are the `t`-th along the
    rows and the only one along the columns; the weight block is always the whole matrix. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has twenty points. -/
theorem point_lt (t : Fin cfg0.N) : t.val < 20 := lt_of_lt_of_eq t.isLt N_0

/-- Entry `(p, k)` of the node block at point `t` is entry `(5000·t + p, k)` of the node features. -/
theorem nodes_block (c : Dev nD) (t : Fin cfg0.N) (p : Fin 5000) (k : Fin 256) (h : 5000 * t.val + p.val < 100000) :
    (iblk0 V c 0 t : Vec Ideal S5000x256 .f32) (ix2 p k) = nodes V c (ix2 ⟨5000 * t.val + p.val, h⟩ k) := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 256 + 1 * k.val = k.val; rw [e1]; omega

/-- The weight block at every point is the whole weight matrix. -/
theorem weights_block (c : Dev nD) (t : Fin cfg0.N) (k : Fin 256) (q : Fin 128) :
    (iblk0 V c 1 t : Vec Ideal S256x128 .f32) (ix2 k q) = weights V c (ix2 k q) := by
  obtain ⟨-, -, e2, e3, -⟩ := block_indices t
  unfold iblk0
  rw [View.read_apply]
  show V c main_arg2 _ = V c main_arg2 _
  congr 1
  funext a
  apply Fin.ext
  match a with
  | ⟨0, _⟩ => show win0_1.index t (0 : Fin 2) * 256 + 1 * k.val = k.val; rw [e2]; omega
  | ⟨1, _⟩ => show win0_1.index t (1 : Fin 2) * 128 + 1 * q.val = q.val; rw [e3]; omega

/-- Entry `(p, q)` of the result block at point `t` sits at `(5000·t + p, q)` of the result array. -/
theorem result_block_index (t : Fin cfg0.N) (p : Fin 5000) (q : Fin 128) (h : 5000 * t.val + p.val < 100000) :
    ((cfg0.win 2).blk t).view.emb (ix2 p q) = (ix2 ⟨5000 * t.val + p.val, h⟩ q : S100000x128.Idx) := by
  obtain ⟨-, -, -, -, e4, e5⟩ := block_indices t
  funext a
  apply Fin.ext
  match a with
  | ⟨0, _⟩ => show win0_2.index t (0 : Fin 2) * 5000 + 1 * p.val = 5000 * t.val + p.val; rw [e4]; omega
  | ⟨1, _⟩ => show win0_2.index t (1 : Fin 2) * 128 + 1 * q.val = q.val; rw [e5]; omega

/-- WHAT POINT `t` WRITES BACK is block `t` of the whole product. -/
theorem flushed_eq (c : Dev nD) (t : Fin cfg0.N) :
    (dat0 (F := Ideal) V c).flushed 2 t = ((cfg0.win 2).blk t).view.read (Elt Ideal)
      (Host.dotGeneral (F := Ideal) (Cert.Lib.PlainMatmul.plainDims 100000 256 128 wholeWF) none (nodes V c) (weights V c)
        : FVec Ideal S100000x128 .f32) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x128) origin]
  funext y
  obtain ⟨p, q, rfl⟩ : ∃ (p : Fin 5000) (q : Fin 128), y = ix2 p q := ⟨y 0, y 1, eq_ix2 y⟩
  have ht := point_lt t
  have h : 5000 * t.val + p.val < 100000 := by have := p.isLt; omega
  rw [View.read_apply, result_block_index t p q h]
  show k0_pay1 (F := Ideal) (iblk0 V c 0 t) (iblk0 V c 1 t) (ix2 p q) = FloatOps.dotGeneral _ none .single (nodes V c) (weights V c) (ix2 ⟨5000 * t.val + p.val, h⟩ q)
  rw [block_product, Cert.Lib.PlainMatmul.dotGeneral_plainDims_apply]
  refine Finset.sum_congr rfl fun k _ => ?_
  rw [nodes_block V c t p k h, weights_block V c t k q]

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- THE BLOCKS COVER THE ARRAY: row `r` is in the block of point `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (show (i 0).val / 5000 < 20 by omega) N_0.symm⟩, rfl⟩
  obtain ⟨-, -, -, -, e4, e5⟩ := block_indices t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

theorem array (c : Dev nD) :
    (dat0 (F := Ideal) V c).arrAt 2 cfg0.N
      = (Host.dotGeneral (F := Ideal) (Cert.Lib.PlainMatmul.plainDims 100000 256 128 wholeWF) none (nodes V c) (weights V c)
          : FVec Ideal S100000x128 .f32) :=
  (dat0 (F := Ideal) V c).arrAt_eq_of_cover 2 _ (fun t _ => flushed_eq V c t) covered

end Cert.KernelIdeal.Product0

end
-- ==== Proof.BiasRelu1.lean ====
/-
  Region 1: bias and rectifier of the first layer, tiled over the node axis.

  Each of the 20 grid points takes 5000 rows of the neighbour sums, adds the one-row bias to every row and cuts the
  result off below at zero. Every point therefore writes back its own block of ONE expression of the whole arrays, and
  the 20 blocks fill the rows, so the array ends holding that expression.
-/
import proofs.«412450_j44203803410712_2_alg».proof.Proof.Gen.KernelIdeal.Frame
import proofs.«412450_j44203803410712_2_alg».proof.Proof.LibPlainMatmul
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.BiasRelu1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem rowBcast : S1x128.BroadcastsInDim S100000x128 (![0, 1] : Fin 2 → Fin S100000x128.rank) := by decide

/-- The neighbour sums as the region finds them. -/
abbrev sums (c : Dev nD) : FVec Ideal S100000x128 .f32 := V c main_v8
/-- The bias, kept as a one-row array, as the region finds it. -/
abbrev biasRow (c : Dev nD) : FVec Ideal S1x128 .f32 := V c main_v9

/-- The zero offset of a whole-block access, as a constant function. -/
theorem zeroOff : (![0, 0] : Fin 2 → Nat) = fun _ => 0 := funext fun a => by fin_cases a <;> rfl

/-- The block indices over the 20 grid points: the sums' block and the result's block are both block `t` along the rows
    and the only block along the columns; the bias row has one block. -/
theorem blockIndex : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The whole-array expression: sums plus the bias row laid down the rows, cut off below at zero. -/
abbrev biasRelu (a : FVec Ideal S100000x128 .f32) (b : FVec Ideal S1x128 .f32) : FVec Ideal S100000x128 .f32 :=
  maximumf (F := Ideal) (addf (F := Ideal) a (broadcastInDim S100000x128 ![0, 1] rowBcast b))
    (broadcastInDim S100000x128 ![] bcast_S_S100000x128 (constant (F := Ideal) S_ .f32 0x00000000#32))

/-- A one-row block laid down the rows of a taller block, read at (p, q), is the row at (0, q). -/
theorem broadcastTo_oneRow_apply {α : Type} {m n : Nat} (hb : (⟨2, ![1, n]⟩ : Shape).Broadcasts ⟨2, ![m, n]⟩)
    (y : (⟨2, ![1, n]⟩ : Shape).Idx → α) (p : Fin m) (q : Fin n) :
    broadcastTo ⟨2, ![m, n]⟩ y hb (ix2 p q) = y (ix2 (0 : Fin 1) q) := by
  refine broadcastTo_apply y hb (ix2 p q) (ix2 (0 : Fin 1) q) ?_
  intro a
  match a with
  | ⟨0, _⟩ => rfl
  | ⟨1, _⟩ =>
    show q.val = if n = 1 then 0 else q.val
    split
    · have := q.isLt; omega
    · rfl

/-- The body's stored value at (p, q): the block entry plus the row entry, cut off below at zero. -/
theorem stored_apply (x0 : Vec Ideal S5000x128 .f32) (x1 : Vec Ideal S1x128 .f32) (p : Fin 5000) (q : Fin 128) :
    k1_pay1 x0 x1 (ix2 p q)
      = max (x0 (ix2 p q) + x1 (ix2 (0 : Fin 1) q)) (Scalar.ofBits (F := Ideal) .f32 0x00000000#32) := by
  unfold k1_pay1
  simp only [shapeCast_self]
  rw [maximumf_apply, addf_apply, broadcast_apply, broadcastTo_oneRow_apply]

/-- The whole-array expression at (r, q): the array entry plus the row entry, cut off below at zero. -/
theorem biasRelu_apply (a : FVec Ideal S100000x128 .f32) (b : FVec Ideal S1x128 .f32) (r : Fin 100000) (q : Fin 128) :
    biasRelu a b (ix2 r q)
      = max (a (ix2 r q) + b (ix2 (0 : Fin 1) q)) (Scalar.ofBits (F := Ideal) .f32 0x00000000#32) := by
  unfold biasRelu
  rw [maximumf_apply, addf_apply, broadcastInDim_oneRow_apply rowBcast b r q, broadcastInDim_constant, broadcast_apply]

/-- What point `t` writes back is block `t` of the whole-array expression: entry (p, q) of the block is entry
    (5000 t + p, q) of the sums and of the result, and the bias row is read whole. -/
theorem flushed_eq (c : Dev nD) (t : Fin cfg1.N) :
    (dat1 (F := Ideal) V c).flushed 2 t
      = ((cfg1.win 2).blk t).view.read (Elt Ideal) (biasRelu (sums V c) (biasRow V c)) := by
  show (cfg1.win 2).cut (grid1.coords t) ((dat1 V c).after 2 t) = _
  rw [after1_2]
  unfold out1_2
  rw [View.canon_unit_zero zeroOff]
  simp only [View.ld_unit_zero (S := S5000x128) zeroOff, View.ld_unit_zero (S := S1x128) zeroOff]
  funext y
  obtain ⟨p, q, rfl⟩ : ∃ (p : Fin 5000) (q : Fin 128), y = ix2 p q := ⟨y 0, y 1, eq_ix2 y⟩
  obtain ⟨e0, e1, e2, e3, e4, e5⟩ := blockIndex t
  have hN : t.val < 20 := t.isLt
  have hr : t.val * 5000 + p.val < 100000 := by have := p.isLt; omega
  have hout : ((cfg1.win 2).blk t).view.emb (ix2 p q) = ix2 (⟨t.val * 5000 + p.val, hr⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  have hin0 : ((cfg1.win 0).blk t).view.emb (ix2 p q) = ix2 (⟨t.val * 5000 + p.val, hr⟩ : Fin 100000) q := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have hin1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  show k1_pay1 (iblk1 V c 0 t) (iblk1 V c 1 t) (ix2 p q)
    = biasRelu (sums V c) (biasRow V c) (((cfg1.win 2).blk t).view.emb (ix2 p q))
  rw [hout]
  refine (stored_apply _ _ p q).trans ((biasRelu_apply _ _ _ q).trans ?_).symm
  show max (sums V c (ix2 (⟨t.val * 5000 + p.val, hr⟩ : Fin 100000) q) + biasRow V c (ix2 (0 : Fin 1) q)) _
    = max (sums V c (((cfg1.win 0).blk t).view.emb (ix2 p q))
        + biasRow V c (((cfg1.win 1).blk t).view.emb (ix2 (0 : Fin 1) q))) _
  rw [hin0, hin1]

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v10).slice (win1_2.rect t)).set ↔ _
  rw [View.set_slice_whole, Rect.mem_set_unit]
  exact Iff.rfl

/-- Row `r` lies in the block of point `r / 5000`: the 20 blocks fill the array. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by show _ < grid1.N; rw [N_1]; omega⟩, rfl⟩
  obtain ⟨e0, e1, e2, e3, e4, e5⟩ := blockIndex t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

theorem array (c : Dev nD) :
    (dat1 (F := Ideal) V c).arrAt 2 cfg1.N
      = (maximumf (F := Ideal) (addf (F := Ideal) (sums V c) (broadcastInDim S100000x128 ![0, 1] rowBcast (biasRow V c)))
          (broadcastInDim S100000x128 ![] bcast_S_S100000x128 (constant (F := Ideal) S_ .f32 0x00000000#32))
          : FVec Ideal S100000x128 .f32) :=
  (dat1 V c).arrAt_eq_of_cover 2 (biasRelu (sums V c) (biasRow V c)) (fun t _ => flushed_eq V c t) covered

end Cert.KernelIdeal.BiasRelu1

end
-- ==== Proof.Bias3.lean ====
/-
  Region 3: the bias of the mean branch, tiled over the node axis.

  Each of the 20 grid points takes 5000 rows of the neighbour sums and adds the one-row bias to every row. Every point
  therefore writes back its own block of ONE expression of the whole arrays, and the 20 blocks fill the rows, so the
  array ends holding that expression.
-/
import proofs.«412450_j44203803410712_2_alg».proof.Proof.Gen.KernelIdeal.Frame
import proofs.«412450_j44203803410712_2_alg».proof.Proof.LibPlainMatmul
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Bias3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem rowBcast : S1x64.BroadcastsInDim S100000x64 (![0, 1] : Fin 2 → Fin S100000x64.rank) := by decide

/-- The neighbour sums as the region finds them. -/
abbrev sums (c : Dev nD) : FVec Ideal S100000x64 .f32 := V c main_v15
/-- The bias, kept as a one-row array, as the region finds it. -/
abbrev biasRow (c : Dev nD) : FVec Ideal S1x64 .f32 := V c main_v16

/-- The zero offset of a whole-block access, as a constant function. -/
theorem zeroOff : (![0, 0] : Fin 2 → Nat) = fun _ => 0 := funext fun a => by fin_cases a <;> rfl

/-- The block indices over the 20 grid points: the sums' block and the result's block are both block `t` along the rows
    and the only block along the columns; the bias row has one block. -/
theorem blockIndex : ∀ t : Fin cfg3.N,
    win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- The whole-array expression: sums plus the bias row laid down the rows. -/
abbrev biased (a : FVec Ideal S100000x64 .f32) (b : FVec Ideal S1x64 .f32) : FVec Ideal S100000x64 .f32 :=
  addf (F := Ideal) a (broadcastInDim S100000x64 ![0, 1] rowBcast b)

/-- A one-row block laid down the rows of a taller block, read at (p, q), is the row at (0, q). -/
theorem broadcastTo_oneRow_apply {α : Type} {m n : Nat} (hb : (⟨2, ![1, n]⟩ : Shape).Broadcasts ⟨2, ![m, n]⟩)
    (y : (⟨2, ![1, n]⟩ : Shape).Idx → α) (p : Fin m) (q : Fin n) :
    broadcastTo ⟨2, ![m, n]⟩ y hb (ix2 p q) = y (ix2 (0 : Fin 1) q) := by
  refine broadcastTo_apply y hb (ix2 p q) (ix2 (0 : Fin 1) q) ?_
  intro a
  match a with
  | ⟨0, _⟩ => rfl
  | ⟨1, _⟩ =>
    show q.val = if n = 1 then 0 else q.val
    split
    · have := q.isLt; omega
    · rfl

/-- The body's stored value at (p, q): the block entry plus the row entry. -/
theorem stored_apply (x0 : Vec Ideal S5000x64 .f32) (x1 : Vec Ideal S1x64 .f32) (p : Fin 5000) (q : Fin 64) :
    k3_pay1 x0 x1 (ix2 p q) = x0 (ix2 p q) + x1 (ix2 (0 : Fin 1) q) := by
  unfold k3_pay1
  simp only [shapeCast_self]
  rw [addf_apply, broadcastTo_oneRow_apply]

/-- The whole-array expression at (r, q): the array entry plus the row entry. -/
theorem biased_apply (a : FVec Ideal S100000x64 .f32) (b : FVec Ideal S1x64 .f32) (r : Fin 100000) (q : Fin 64) :
    biased a b (ix2 r q) = a (ix2 r q) + b (ix2 (0 : Fin 1) q) := by
  unfold biased
  rw [addf_apply, broadcastInDim_oneRow_apply rowBcast b r q]

/-- What point `t` writes back is block `t` of the whole-array expression: entry (p, q) of the block is entry
    (5000 t + p, q) of the sums and of the result, and the bias row is read whole. -/
theorem flushed_eq (c : Dev nD) (t : Fin cfg3.N) :
    (dat3 (F := Ideal) V c).flushed 2 t
      = ((cfg3.win 2).blk t).view.read (Elt Ideal) (biased (sums V c) (biasRow V c)) := by
  show (cfg3.win 2).cut (grid3.coords t) ((dat3 V c).after 2 t) = _
  rw [after3_2]
  unfold out3_2
  rw [View.canon_unit_zero zeroOff]
  simp only [View.ld_unit_zero (S := S5000x64) zeroOff, View.ld_unit_zero (S := S1x64) zeroOff]
  funext y
  obtain ⟨p, q, rfl⟩ : ∃ (p : Fin 5000) (q : Fin 64), y = ix2 p q := ⟨y 0, y 1, eq_ix2 y⟩
  obtain ⟨e0, e1, e2, e3, e4, e5⟩ := blockIndex t
  have hN : t.val < 20 := t.isLt
  have hr : t.val * 5000 + p.val < 100000 := by have := p.isLt; omega
  have hout : ((cfg3.win 2).blk t).view.emb (ix2 p q) = ix2 (⟨t.val * 5000 + p.val, hr⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 64 + 1 * q.val = q.val; omega
  have hin0 : ((cfg3.win 0).blk t).view.emb (ix2 p q) = ix2 (⟨t.val * 5000 + p.val, hr⟩ : Fin 100000) q := by
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  have hin1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 64 + 1 * q.val = q.val; omega
  show k3_pay1 (iblk3 V c 0 t) (iblk3 V c 1 t) (ix2 p q)
    = biased (sums V c) (biasRow V c) (((cfg3.win 2).blk t).view.emb (ix2 p q))
  rw [hout]
  refine (stored_apply _ _ p q).trans ((biased_apply _ _ _ q).trans ?_).symm
  show sums V c (ix2 (⟨t.val * 5000 + p.val, hr⟩ : Fin 100000) q) + biasRow V c (ix2 (0 : Fin 1) q)
    = sums V c (((cfg3.win 0).blk t).view.emb (ix2 p q))
        + biasRow V c (((cfg3.win 1).blk t).view.emb (ix2 (0 : Fin 1) q))
  rw [hin0, hin1]

/-- An index of the array is in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v17).slice (win3_2.rect t)).set ↔ _
  rw [View.set_slice_whole, Rect.mem_set_unit]
  exact Iff.rfl

/-- Row `r` lies in the block of point `r / 5000`: the 20 blocks fill the array. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by show _ < grid3.N; rw [N_3]; omega⟩, rfl⟩
  obtain ⟨e0, e1, e2, e3, e4, e5⟩ := blockIndex t
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

theorem array (c : Dev nD) :
    (dat3 (F := Ideal) V c).arrAt 2 cfg3.N
      = (addf (F := Ideal) (sums V c) (broadcastInDim S100000x64 ![0, 1] rowBcast (biasRow V c))
          : FVec Ideal S100000x64 .f32) :=
  (dat3 V c).arrAt_eq_of_cover 2 (biased (sums V c) (biasRow V c)) (fun t _ => flushed_eq V c t) covered

end Cert.KernelIdeal.Bias3

end
-- ==== Proof.Bias5.lean ====
/-
  Region 5: the bias of the log-variance branch, tiled over the node axis.

  Each of the 20 grid points takes 5000 rows of the neighbour sums and adds the one-row bias to every row. Every point
  therefore writes back its own block of ONE expression of the whole arrays, and the 20 blocks fill the rows, so the
  array ends holding that expression.
-/
import proofs.«412450_j44203803410712_2_alg».proof.Proof.Gen.KernelIdeal.Frame
import proofs.«412450_j44203803410712_2_alg».proof.Proof.LibPlainMatmul
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Bias5

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem rowBcast : S1x64.BroadcastsInDim S100000x64 (![0, 1] : Fin 2 → Fin S100000x64.rank) := by decide

/-- The neighbour sums as the region finds them. -/
abbrev sums (c : Dev nD) : FVec Ideal S100000x64 .f32 := V c main_v22
/-- The bias, kept as a one-row array, as the region finds it. -/
abbrev biasRow (c : Dev nD) : FVec Ideal S1x64 .f32 := V c main_v23

/-- The zero offset of a whole-block access, as a constant function. -/
theorem zeroOff : (![0, 0] : Fin 2 → Nat) = fun _ => 0 := funext fun a => by fin_cases a <;> rfl

/-- The block indices over the 20 grid points: the sums' block and the result's block are both block `t` along the rows
    and the only block along the columns; the bias row has one block. -/
theorem blockIndex : ∀ t : Fin cfg5.N,
    win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- The whole-array expression: sums plus the bias row laid down the rows. -/
abbrev biased (a : FVec Ideal S100000x64 .f32) (b : FVec Ideal S1x64 .f32) : FVec Ideal S100000x64 .f32 :=
  addf (F := Ideal) a (broadcastInDim S100000x64 ![0, 1] rowBcast b)

/-- A one-row block laid down the rows of a taller block, read at (p, q), is the row at (0, q). -/
theorem broadcastTo_oneRow_apply {α : Type} {m n : Nat} (hb : (⟨2, ![1, n]⟩ : Shape).Broadcasts ⟨2, ![m, n]⟩)
    (y : (⟨2, ![1, n]⟩ : Shape).Idx → α) (p : Fin m) (q : Fin n) :
    broadcastTo ⟨2, ![m, n]⟩ y hb (ix2 p q) = y (ix2 (0 : Fin 1) q) := by
  refine broadcastTo_apply y hb (ix2 p q) (ix2 (0 : Fin 1) q) ?_
  intro a
  match a with
  | ⟨0, _⟩ => rfl
  | ⟨1, _⟩ =>
    show q.val = if n = 1 then 0 else q.val
    split
    · have := q.isLt; omega
    · rfl

/-- The body's stored value at (p, q): the block entry plus the row entry. -/
theorem stored_apply (x0 : Vec Ideal S5000x64 .f32) (x1 : Vec Ideal S1x64 .f32) (p : Fin 5000) (q : Fin 64) :
    k5_pay1 x0 x1 (ix2 p q) = x0 (ix2 p q) + x1 (ix2 (0 : Fin 1) q) := by
  unfold k5_pay1
  simp only [shapeCast_self]
  rw [addf_apply, broadcastTo_oneRow_apply]

/-- The whole-array expression at (r, q): the array entry plus the row entry. -/
theorem biased_apply (a : FVec Ideal S100000x64 .f32) (b : FVec Ideal S1x64 .f32) (r : Fin 100000) (q : Fin 64) :
    biased a b (ix2 r q) = a (ix2 r q) + b (ix2 (0 : Fin 1) q) := by
  unfold biased
  rw [addf_apply, broadcastInDim_oneRow_apply rowBcast b r q]

/-- What point `t` writes back is block `t` of the whole-array expression: entry (p, q) of the block is entry
    (5000 t + p, q) of the sums and of the result, and the bias row is read whole. -/
theorem flushed_eq (c : Dev nD) (t : Fin cfg5.N) :
    (dat5 (F := Ideal) V c).flushed 2 t
      = ((cfg5.win 2).blk t).view.read (Elt Ideal) (biased (sums V c) (biasRow V c)) := by
  show (cfg5.win 2).cut (grid5.coords t) ((dat5 V c).after 2 t) = _
  rw [after5_2]
  unfold out5_2
  rw [View.canon_unit_zero zeroOff]
  simp only [View.ld_unit_zero (S := S5000x64) zeroOff, View.ld_unit_zero (S := S1x64) zeroOff]
  funext y
  obtain ⟨p, q, rfl⟩ : ∃ (p : Fin 5000) (q : Fin 64), y = ix2 p q := ⟨y 0, y 1, eq_ix2 y⟩
  obtain ⟨e0, e1, e2, e3, e4, e5⟩ := blockIndex t
  have hN : t.val < 20 := t.isLt
  have hr : t.val * 5000 + p.val < 100000 := by have := p.isLt; omega
  have hout : ((cfg5.win 2).blk t).view.emb (ix2 p q) = ix2 (⟨t.val * 5000 + p.val, hr⟩ : Fin 100000) q := by
    funext a; apply Fin.ext
    match a with
    | ⟨0, _⟩ => show win5_2.index t (0 : Fin 2) * 5000 + 1 * p.val = t.val * 5000 + p.val; omega
    | ⟨1, _⟩ => show win5_2.index t (1 : Fin 2) * 64 + 1 * q.val = q.val; omega
  have hin0 : ((cfg5.win 0).blk t).view.emb (ix2 p q) = ix2 (⟨t.val * 5000 + p.val, hr⟩ : Fin 100000) q := by
    funext a; apply Fin.ext
    match a with
    | ⟨0, _⟩ => show win5_0.index t (0 : Fin 2) * 5000 + 1 * p.val = t.val * 5000 + p.val; omega
    | ⟨1, _⟩ => show win5_0.index t (1 : Fin 2) * 64 + 1 * q.val = q.val; omega
  have hin1 : ((cfg5.win 1).blk t).view.emb (ix2 (0 : Fin 1) q) = ix2 (0 : Fin 1) q := by
    funext a; apply Fin.ext
    match a with
    | ⟨0, _⟩ => show win5_1.index t (0 : Fin 2) * 1 + 1 * 0 = 0; omega
    | ⟨1, _⟩ => show win5_1.index t (1 : Fin 2) * 64 + 1 * q.val = q.val; omega
  show k5_pay1 (iblk5 V c 0 t) (iblk5 V c 1 t) (ix2 p q)
    = biased (sums V c) (biasRow V c) (((cfg5.win 2).blk t).view.emb (ix2 p q))
  rw [hout]
  refine (stored_apply _ _ p q).trans ((biased_apply _ _ _ q).trans ?_).symm
  show sums V c (ix2 (⟨t.val * 5000 + p.val, hr⟩ : Fin 100000) q) + biasRow V c (ix2 (0 : Fin 1) q)
    = sums V c (((cfg5.win 0).blk t).view.emb (ix2 p q))
        + biasRow V c (((cfg5.win 1).blk t).view.emb (ix2 (0 : Fin 1) q))
  rw [hin0, hin1]

/-- An index of the array is in point `t`'s block iff each coordinate is in the block's range on its axis. -/
theorem mem_blk (t : Fin cfg5.N) (i : S100000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v24).slice (win5_2.rect t)).set ↔ _
  rw [View.set_slice_whole, Rect.mem_set_unit]
  exact Iff.rfl

/-- Row `r` lies in the block of point `r / 5000`: the 20 blocks fill the array. -/
theorem covered (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ : ∃ t : Fin cfg5.N, t.val = (i 0).val / 5000 :=
    ⟨⟨(i 0).val / 5000, by show _ < grid5.N; rw [N_5]; omega⟩, rfl⟩
  obtain ⟨e0, e1, e2, e3, e4, e5⟩ := blockIndex t
  refine ⟨t, flush5_2 t, ?_⟩
  rw [mem_blk]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 64 ≤ (i 1).val ∧ (i 1).val < win5_2.index t (1 : Fin 2) * 64 + 64
    omega

theorem array (c : Dev nD) :
    (dat5 (F := Ideal) V c).arrAt 2 cfg5.N
      = (addf (F := Ideal) (sums V c) (broadcastInDim S100000x64 ![0, 1] rowBcast (biasRow V c))
          : FVec Ideal S100000x64 .f32) :=
  (dat5 V c).arrAt_eq_of_cover 2 (biased (sums V c) (biasRow V c)) (fun t _ => flushed_eq V c t) covered

end Cert.KernelIdeal.Bias5

end
-- ==== Proof.LibReduceAndUnitAxis.lean ====
/-
  A reduction by `and` over one axis of size one, read at an index.

  `jnp.take_along_axis` checks that each start index is in range by reducing, with `and` from the constant `true`, the
  range test over the index vector's axis.  When the index vector has one component that axis has size one, the fold
  meets exactly one operand element, and `x and true = x`: the reduction at a result index is the operand at the one
  index that drops to it.  Stated for any shapes and any single reduced axis of size one; then spelt out for the last
  axis of a rank-3 and of a rank-4 array.
-/
import Idealize.ShloMosaic.PureOps.Reduce
import Idealize.ShloMosaic.Lib.ValueIdx

noncomputable section

namespace Cert.LibReduceAndUnitAxis

open Idealize.ShloMosaic Idealize.ShloMosaic.ValueIdx

/-- On one bit, `x and 1 = x`. -/
theorem andi_one (v : BitVec 1) : IntOp.andi v 1#1 = v := by revert v; decide

variable {s t u : Shape} {a : Fin s.rank}

/-- THE REDUCTION READ AT THE INDEX `i` DROPS TO: a `stablehlo.reduce` by `and`, from an initial value 1, over the one
    axis `a` of size 1, is at `drop i` the operand's element at `i`. -/
theorem reduce_andi_unit_axis (x : s.Idx → BitVec 1) (init : u.Idx → BitVec 1) (h' : s.ReducesTo [a] t) (ht : 0 < t.rank)
    (hu : 0 < u.numel) (hinit : init (Shape.Idx.first hu) = 1#1) (ha : s.size a = 1) (i : s.Idx) :
    Host.reduce IntOp.andi x init h' hu (h'.drop i) = x i := by
  have h : s.Reduces [a] t := ⟨h'.1, ht, h'.2⟩
  rw [Host.reduce_eq_fold_single IntOp.andi x init h' h hu, hinit]
  have huniv : (Finset.univ : Finset (Fin (s.size a))) = {i a} := by
    ext k
    simp only [Finset.mem_univ, Finset.mem_singleton, true_iff]
    exact Fin.ext (by have := k.isLt; have := (i a).isLt; omega)
  rw [huniv, Finset.fold_singleton, Function.comp_apply]
  show IntOp.andi (x (h.lift (h.drop i) (i a))) 1#1 = x i
  rw [h.lift_drop, andi_one]

/-- The last axis of a rank-3 array `[B, Q, 1]`: the reduction at `(b, q)` is the operand at `(b, q, 0)`. -/
theorem reduce_andi_last_of3 {B Q : Nat} (x : IVec ⟨3, ![B, Q, 1]⟩ 1) (init : u.Idx → BitVec 1)
    (h' : (⟨3, ![B, Q, 1]⟩ : Shape).ReducesTo [2] ⟨2, ![B, Q]⟩) (hu : 0 < u.numel)
    (hinit : init (Shape.Idx.first hu) = 1#1) (b : Fin B) (q : Fin Q) :
    Host.reduce IntOp.andi x init h' hu (ix2 b q) = x (ix3 b q ⟨0, Nat.one_pos⟩) := by
  have e : h'.drop (ix3 b q ⟨0, Nat.one_pos⟩) = ix2 b q := by
    funext c
    match c with
    | ⟨0, _⟩ => rfl
    | ⟨1, _⟩ => rfl
  rw [← e]
  exact reduce_andi_unit_axis x init h' (Nat.succ_pos _) hu hinit rfl _

/-- The last axis of a rank-4 array `[B, Q, M, 1]`: the reduction at `(b, q, m)` is the operand at `(b, q, m, 0)`. -/
theorem reduce_andi_last_of4 {B Q M : Nat} (x : IVec ⟨4, ![B, Q, M, 1]⟩ 1) (init : u.Idx → BitVec 1)
    (h' : (⟨4, ![B, Q, M, 1]⟩ : Shape).ReducesTo [3] ⟨3, ![B, Q, M]⟩) (hu : 0 < u.numel)
    (hinit : init (Shape.Idx.first hu) = 1#1) (b : Fin B) (q : Fin Q) (m : Fin M) :
    Host.reduce IntOp.andi x init h' hu (ix3 b q m) = x (ix4 b q m ⟨0, Nat.one_pos⟩) := by
  have e : h'.drop (ix4 b q m ⟨0, Nat.one_pos⟩) = ix3 b q m := by
    funext c
    match c with
    | ⟨0, _⟩ => rfl
    | ⟨1, _⟩ => rfl
    | ⟨2, _⟩ => rfl
  rw [← e]
  exact reduce_andi_unit_axis x init h' (Nat.succ_pos _) hu hinit rfl _

end Cert.LibReduceAndUnitAxis

end
-- ==== Proof.TakeFill.lean ====
/-
  A row gather that fills out-of-range reads, when every source index is in range.

  The gather first counts a negative index from the end (it adds the number of rows), then tests the result against
  `0` and the last row, and where the test fails puts a fill value in place of the gathered row. When every source
  index names a row, from either end, the test holds everywhere and the fill is never used.
-/
import Idealize.ShloMosaic.PureOps
import Idealize.ShloMosaic.Lib.ValueIdx
import proofs.«412450_j44203803410712_2_alg».proof.Proof.LibReduceAndUnitAxis

noncomputable section

namespace Cert.TakeFill

open Idealize.ShloMosaic Idealize.ShloMosaic.ValueIdx

abbrev SE : Shape := ⟨1, ![1600000]⟩
abbrev SEx1 : Shape := ⟨2, ![1600000, 1]⟩
abbrev S0 : Shape := ⟨0, ![]⟩
abbrev S1 : Shape := ⟨1, ![1]⟩
abbrev S1x1 : Shape := ⟨2, ![1, 1]⟩

/-- A source index names one of the 100000 rows, counted from the front or (negative) from the end. -/
def InRange (s : BitVec 32) : Prop := (-100000 : Int) ≤ s.toInt ∧ s.toInt < 100000

/-- The index counted from the front: a negative index in range has the number of rows added to it, and the sum does
    not wrap; either way the result is one of the rows 0 to 99999. -/
theorem wrapped_toInt (s : BitVec 32) (hs : InRange s) :
    0 ≤ (Scalar.select (IntOp.cmpi .slt s 0#32) (IntOp.addi s 100000#32) s).toInt ∧
    (Scalar.select (IntOp.cmpi .slt s 0#32) (IntOp.addi s 100000#32) s).toInt ≤ 99999 := by
  obtain ⟨h1, h2⟩ := hs
  by_cases hneg : s.toInt < 0
  · have hc : IntOp.cmpi .slt s 0#32 = 1#1 := by
      simp only [IntOp.cmpi]
      rw [show s.slt 0#32 = true from by rw [BitVec.slt_iff_toInt_lt]; simpa using hneg]
      rfl
    rw [hc]
    simp only [Scalar.select, IntOp.addi]
    rw [if_pos (by decide), BitVec.toInt_add]
    have h100 : (100000#32 : BitVec 32).toInt = 100000 := by decide
    rw [h100]
    simp only [Int.bmod]
    omega
  · have hc : IntOp.cmpi .slt s 0#32 = 0#1 := by
      simp only [IntOp.cmpi]
      rw [show s.slt 0#32 = false from by
        rw [Bool.eq_false_iff]; intro h; rw [BitVec.slt_iff_toInt_lt] at h; simp at h; omega]
      rfl
    rw [hc]
    simp only [Scalar.select]
    rw [if_neg (by decide)]
    omega

/-- A word that is not negative as a signed integer passes the test "0 ≤ w". -/
theorem sge_zero (w : BitVec 32) (h : 0 ≤ w.toInt) : IntOp.cmpi .sge w 0#32 = 1#1 := by
  simp only [IntOp.cmpi]
  rw [show (0#32 : BitVec 32).sle w = true from by rw [BitVec.sle_iff_toInt_le]; simpa using h]
  rfl

/-- A word that is at most 99999 as a signed integer passes the test "w ≤ 99999". -/
theorem sle_last (w : BitVec 32) (h : w.toInt ≤ 99999) : IntOp.cmpi .sle w 99999#32 = 1#1 := by
  simp only [IntOp.cmpi]
  rw [show w.sle 99999#32 = true from by
    rw [BitVec.sle_iff_toInt_le]
    have h9 : (99999#32 : BitVec 32).toInt = 99999 := by decide
    rw [h9]; exact h]
  rfl

/-- The last axis of a rank-2 column [E, 1]: the reduction by "and" from 1 at e is the operand at (e, 0). -/
theorem reduce_andi_last_of2 {E : Nat} {u : Shape} (x : IVec ⟨2, ![E, 1]⟩ 1) (init : u.Idx → BitVec 1)
    (h' : (⟨2, ![E, 1]⟩ : Shape).ReducesTo [1] ⟨1, ![E]⟩) (hu : 0 < u.numel)
    (hinit : init (Shape.Idx.first hu) = 1#1) (e : Fin E) :
    Host.reduce IntOp.andi x init h' hu (ix1 e) = x (ix2 e ⟨0, Nat.one_pos⟩) := by
  have he : h'.drop (ix2 e ⟨0, Nat.one_pos⟩) = ix1 e := by
    funext c
    match c with
    | ⟨0, _⟩ => rfl
  rw [← he]
  exact Cert.LibReduceAndUnitAxis.reduce_andi_unit_axis x init h' (Nat.succ_pos _) hu hinit rfl _

/-- A vector over the rows, broadcast along the columns of a [1600000, C] array, reads at (e, c) its entry e. -/
theorem broadcast_rows_apply {β : Type} {C : Nat}
    (hm : SE.BroadcastsInDim (⟨2, ![1600000, C]⟩ : Shape) (![0] : Fin 1 → Fin 2)) (r : SE.Idx → β)
    (e : Fin 1600000) (c : Fin C) :
    broadcastInDim (⟨2, ![1600000, C]⟩ : Shape) ![0] hm r (ix2 e c) = r (ix1 e) := by
  unfold broadcastInDim
  congr 1
  funext a
  match a with
  | ⟨0, _⟩ => rfl

/-- A column [1600000, 1] that is 1 everywhere, reduced by "and" over its unit axis and broadcast along the rows of a
    [1600000, C] array, is 1 everywhere. -/
theorem mask_one {C : Nat} (hm : SE.BroadcastsInDim (⟨2, ![1600000, C]⟩ : Shape) (![0] : Fin 1 → Fin 2))
    (hred : SEx1.ReducesTo [1] SE) (hS : 0 < S0.numel) (x : IVec SEx1 1)
    (hx : ∀ e : Fin 1600000, x (ix2 e ⟨0, Nat.one_pos⟩) = 1#1) (e : Fin 1600000) (c : Fin C) :
    broadcastInDim (⟨2, ![1600000, C]⟩ : Shape) ![0] hm
      (Host.reduce IntOp.andi x (constantI S0 1 1#1) hred hS) (ix2 e c) = 1#1 := by
  rw [broadcast_rows_apply, reduce_andi_last_of2 x (constantI S0 1 1#1) hred hS rfl e]
  exact hx e

/-- With every source index in range, the range test of the gather holds at every edge, so the select between the
    gathered rows `g` and the fill reads `g`. -/
theorem select_in_bounds {α : Type} {C : Nat}
    (hb : S0.BroadcastsInDim SE (![] : Fin 0 → Fin SE.rank)) (hcol : SE.BroadcastsInDim SEx1 (![0] : Fin 1 → Fin SEx1.rank))
    (hb01 : S0.BroadcastsInDim SEx1 (![] : Fin 0 → Fin SEx1.rank))
    (h1 : S1.BroadcastsInDim S1x1 (![1] : Fin 1 → Fin S1x1.rank)) (h11 : S1x1.BroadcastsInDim SEx1 (![0, 1] : Fin 2 → Fin SEx1.rank))
    (hred : SEx1.ReducesTo [1] SE) (hS : 0 < S0.numel)
    (hm : SE.BroadcastsInDim (⟨2, ![1600000, C]⟩ : Shape) (![0] : Fin 1 → Fin 2))
    (src : IVec SE 32) (hsrc : ∀ e, InRange (src e)) (g fill : (⟨2, ![1600000, C]⟩ : Shape).Idx → α) :
    select (broadcastInDim (⟨2, ![1600000, C]⟩ : Shape) ![0] hm
        (Host.reduce IntOp.andi
          (andi
            (cmpi .sge (broadcastInDim SEx1 ![0] hcol (select (cmpi .slt src (broadcastInDim SE ![] hb (constantI S0 32 0#32))) (addi src (broadcastInDim SE ![] hb (constantI S0 32 100000#32))) src)) (broadcastInDim SEx1 ![] hb01 (constantI S0 32 0#32)))
            (cmpi .sle (broadcastInDim SEx1 ![0] hcol (select (cmpi .slt src (broadcastInDim SE ![] hb (constantI S0 32 0#32))) (addi src (broadcastInDim SE ![] hb (constantI S0 32 100000#32))) src)) (broadcastInDim SEx1 ![0, 1] h11 (broadcastInDim S1x1 ![1] h1 (constantI S1 32 99999#32)))))
          (constantI S0 1 1#1) hred hS)) g fill = g := by
  funext i
  obtain ⟨e, c, rfl⟩ : ∃ (e : Fin 1600000) (c : Fin C), i = ix2 e c := ⟨i 0, i 1, eq_ix2 i⟩
  rw [select_apply, mask_one hm hred hS _ ?_ e c]
  · rfl
  · intro e'
    show IntOp.andi
        (IntOp.cmpi .sge (Scalar.select (IntOp.cmpi .slt (src _) 0#32) (IntOp.addi (src _) 100000#32) (src _)) 0#32)
        (IntOp.cmpi .sle (Scalar.select (IntOp.cmpi .slt (src _) 0#32) (IntOp.addi (src _) 100000#32) (src _)) 99999#32)
      = 1#1
    rw [sge_zero _ (wrapped_toInt _ (hsrc _)).1, sle_last _ (wrapped_toInt _ (hsrc _)).2]
    rfl

end Cert.TakeFill

end
-- ==== Proof.KernelValue.lean ====
/-
  What the kernel program's two results hold, as functions of the launch arrays.

  Three graph-convolution layers: a dense product (one tiled region each), the rows gathered by the edges' sources and
  summed onto the edges' destinations (host operations), then the bias, for the first layer with a rectifier (one tiled
  region each). The hidden layer feeds the two output branches. Each region's array is the whole-array operation of
  what the region finds, and each host stretch is read off the segment boundaries; where every source index names a
  node, the gather's fill for out-of-range reads is never used.
-/
import proofs.«412450_j44203803410712_2_alg».proof.Proof.Walks
import proofs.«412450_j44203803410712_2_alg».proof.Proof.Stretches
import proofs.«412450_j44203803410712_2_alg».proof.Proof.Product0
import proofs.«412450_j44203803410712_2_alg».proof.Proof.Product2
import proofs.«412450_j44203803410712_2_alg».proof.Proof.Product4
import proofs.«412450_j44203803410712_2_alg».proof.Proof.BiasRelu1
import proofs.«412450_j44203803410712_2_alg».proof.Proof.Bias3
import proofs.«412450_j44203803410712_2_alg».proof.Proof.Bias5
import proofs.«412450_j44203803410712_2_alg».proof.Proof.TakeFill

set_option maxRecDepth 16384

noncomputable section

namespace Cert.KernelIdeal.Chain

open Idealize.ShloMosaic Idealize.ShloMosaic.TcCoe Idealize.ShloMosaic.StableHlo
open Idealize.SL Idealize.SL.Sem
open Cert.KernelIdeal Cert.KernelIdeal.Gen Cert.KernelIdeal.Walks

/-! ## The layers as functions of arrays -/

/-- The rows of a 128-column table gathered by source. -/
abbrev rows128 (h : FVec Ideal S100000x128 .f32) (s : IVec S1600000 32) : FVec Ideal S1600000x128 .f32 :=
  Host.gather gather_S100000x128_S1600000x1_S1600000x128_1_0_n_n_0_1_1128 h (wrapColumn s)
/-- The rows of a 64-column table gathered by source. -/
abbrev rows64 (h : FVec Ideal S100000x64 .f32) (s : IVec S1600000 32) : FVec Ideal S1600000x64 .f32 :=
  Host.gather gather_S100000x64_S1600000x1_S1600000x64_1_0_n_n_0_1_164 h (wrapColumn s)

/-- The hidden layer: product, neighbour sums, bias, rectifier. -/
def hiddenOf (x : FVec Ideal S100000x256 .f32) (ei : IVec S2x1600000 32) (w : FVec Ideal S256x128 .f32)
    (b : FVec Ideal S128 .f32) : FVec Ideal S100000x128 .f32 :=
  maximumf (F := Ideal)
    (addf (F := Ideal)
      (summed128 (dstRow ei) (rows128 (Host.dotGeneral (F := Ideal) (Cert.Lib.PlainMatmul.plainDims 100000 256 128 Product0.wholeWF) none x w) (srcRow ei)))
      (broadcastInDim S100000x128 ![0, 1] BiasRelu1.rowBcast (shapeCast S1x128 b shapeCasts_S128_S1x128)))
    (broadcastInDim S100000x128 ![] bcast_S_S100000x128 (constant (F := Ideal) S_ .f32 0x00000000#32))

/-- An output branch: product, neighbour sums, bias. -/
def branchOf (rowBcast : S1x64.BroadcastsInDim S100000x64 (![0, 1] : Fin 2 → Fin S100000x64.rank))
    (wf : DotDims.WF S100000x128 S128x64 S100000x64 [1] [0] [0] [1] [] [])
    (h : FVec Ideal S100000x128 .f32) (ei : IVec S2x1600000 32) (w : FVec Ideal S128x64 .f32)
    (b : FVec Ideal S64 .f32) : FVec Ideal S100000x64 .f32 :=
  addf (F := Ideal)
    (summed64 (dstRow ei) (rows64 (Host.dotGeneral (F := Ideal) (Cert.Lib.PlainMatmul.plainDims 100000 128 64 wf) none h w) (srcRow ei)))
    (broadcastInDim S100000x64 ![0, 1] rowBcast (shapeCast S1x64 b shapeCasts_S64_S1x64))

/-! ## The gather's fill is never used where every source is in range -/

theorem filled128 (h : FVec Ideal S100000x128 .f32) (s : IVec S1600000 32) (hs : ∀ e, Cert.TakeFill.InRange (s e)) :
    filledRows128 h s = rows128 h s :=
  Cert.TakeFill.select_in_bounds bcast_S_S1600000 bcast_S1600000_S1600000x1_0 bcast_S_S1600000x1 bcast_S1_S1x1_1
    bcast_S1x1_S1600000x1_0_1 reducesTo_S1600000x1_S1600000_d1 h_S_ bcast_S1600000_S1600000x128_0 s hs _ _

theorem filled64 (h : FVec Ideal S100000x64 .f32) (s : IVec S1600000 32) (hs : ∀ e, Cert.TakeFill.InRange (s e)) :
    filledRows64 h s = rows64 h s :=
  Cert.TakeFill.select_in_bounds bcast_S_S1600000 bcast_S1600000_S1600000x1_0 bcast_S_S1600000x1 bcast_S1_S1x1_1
    bcast_S1x1_S1600000x1_0_1 reducesTo_S1600000x1_S1600000_d1 h_S_ bcast_S1600000_S1600000x64_0 s hs _ _

/-! ## The boundaries, layer by layer -/

variable (m : (ℓ : Loc nD τ sig) → Buf (Elt Ideal) ℓ) (ρ : Dev nD → PrngReg)

/-- The launch arrays by name. -/
abbrev X (c : Dev nD) : FVec Ideal S100000x256 .f32 := m ((c : Thread nD τ).loc main_arg0)
abbrev EI (c : Dev nD) : IVec S2x1600000 32 := m ((c : Thread nD τ).loc main_arg1)
abbrev Wt1 (c : Dev nD) : FVec Ideal S256x128 .f32 := m ((c : Thread nD τ).loc main_arg2)
abbrev B1 (c : Dev nD) : FVec Ideal S128 .f32 := m ((c : Thread nD τ).loc main_arg3)
abbrev Wt2 (c : Dev nD) : FVec Ideal S128x64 .f32 := m ((c : Thread nD τ).loc main_arg4)
abbrev B2 (c : Dev nD) : FVec Ideal S64 .f32 := m ((c : Thread nD τ).loc main_arg5)
abbrev Wt3 (c : Dev nD) : FVec Ideal S128x64 .f32 := m ((c : Thread nD τ).loc main_arg6)
abbrev B3 (c : Dev nD) : FVec Ideal S64 .f32 := m ((c : Thread nD τ).loc main_arg7)

variable (hsrc : ∀ (c : Dev nD) (e : S1600000.Idx), Cert.TakeFill.InRange (srcRow (EI m c) e))
include hsrc

/-- Region 0 leaves the first product. -/
theorem product1 (c : Dev nD) : W2 m ρ c (Proc.devRef .tc main_v4)
    = Host.dotGeneral (F := Ideal) (Cert.Lib.PlainMatmul.plainDims 100000 256 128 Product0.wholeWF) none (X m c) (Wt1 m c) := by
  refine (W2_arr m ρ c 2).trans ((Product0.array (V1 m ρ) c).trans ?_)
  rw [show Product0.nodes (V1 m ρ) c = X m c from arg0_W1 m ρ c,
    show Product0.weights (V1 m ρ) c = Wt1 m c from arg2_W1 m ρ c]

/-- The first layer's neighbour sums. -/
theorem sumsLayer1 (c : Dev nD) : W4 m ρ c (Proc.devRef .tc main_v8)
    = summed128 (dstRow (EI m c)) (rows128 (Host.dotGeneral (F := Ideal) (Cert.Lib.PlainMatmul.plainDims 100000 256 128 Product0.wholeWF) none (X m c) (Wt1 m c)) (srcRow (EI m c))) := by
  rw [sums1 m ρ c, dst_W3 m ρ c, messages1 m ρ c, product1 m ρ hsrc c, src_W2 m ρ c, filled128 _ _ (hsrc c)]

/-- Region 1 leaves the hidden layer. -/
theorem hidden (c : Dev nD) : W5 m ρ c (Proc.devRef .tc main_v10) = hiddenOf (X m c) (EI m c) (Wt1 m c) (B1 m c) := by
  refine (W5_arr m ρ c 2).trans ((BiasRelu1.array (V4 m ρ) c).trans ?_)
  rw [show BiasRelu1.sums (V4 m ρ) c = _ from sumsLayer1 m ρ hsrc c,
    show BiasRelu1.biasRow (V4 m ρ) c = _ from (biasRow1 m ρ c).trans (by rw [arg3_W3 m ρ c])]
  rfl

/-- The mean branch: region 2's product, the stretch between, region 3's bias. -/
theorem mean9 (c : Dev nD) : W9 m ρ c (Proc.devRef .tc main_v17)
    = branchOf Bias3.rowBcast Product2.wholeWF (hiddenOf (X m c) (EI m c) (Wt1 m c) (B1 m c)) (EI m c) (Wt2 m c) (B2 m c) := by
  have hp : W6 m ρ c (Proc.devRef .tc main_v11)
      = Host.dotGeneral (F := Ideal) (Cert.Lib.PlainMatmul.plainDims 100000 128 64 Product2.wholeWF) none (hiddenOf (X m c) (EI m c) (Wt1 m c) (B1 m c)) (Wt2 m c) := by
    refine (W6_arr m ρ c 2).trans ((Product2.array (V5 m ρ) c).trans ?_)
    rw [show Product2.hidden (V5 m ρ) c = _ from hidden m ρ hsrc c,
      show Product2.weights (V5 m ρ) c = Wt2 m c from arg4_W5 m ρ c]
  have hs : W8 m ρ c (Proc.devRef .tc main_v15) = summed64 (dstRow (EI m c))
      (rows64 (Host.dotGeneral (F := Ideal) (Cert.Lib.PlainMatmul.plainDims 100000 128 64 Product2.wholeWF) none (hiddenOf (X m c) (EI m c) (Wt1 m c) (B1 m c)) (Wt2 m c)) (srcRow (EI m c))) := by
    rw [sums2 m ρ c, dst_W7 m ρ c, messages2 m ρ c, hp, src_W6 m ρ c, filled64 _ _ (hsrc c)]
  refine (W9_arr m ρ c 2).trans ((Bias3.array (V8 m ρ) c).trans ?_)
  rw [show Bias3.sums (V8 m ρ) c = _ from hs,
    show Bias3.biasRow (V8 m ρ) c = _ from (biasRow2 m ρ c).trans (by rw [arg5_W7 m ρ c])]
  rfl

/-- The first result at the end of the run. -/
theorem mean (c : Dev nD) : W13 m ρ c (Proc.devRef .tc main_v17)
    = branchOf Bias3.rowBcast Product2.wholeWF (hiddenOf (X m c) (EI m c) (Wt1 m c) (B1 m c)) (EI m c) (Wt2 m c) (B2 m c) :=
  (mean_W13 m ρ c).trans (mean9 m ρ hsrc c)

/-- The log-variance branch: region 4's product, the stretch between, region 5's bias. -/
theorem logvar (c : Dev nD) : W13 m ρ c (Proc.devRef .tc main_v24)
    = branchOf Bias5.rowBcast Product4.wholeWF (hiddenOf (X m c) (EI m c) (Wt1 m c) (B1 m c)) (EI m c) (Wt3 m c) (B3 m c) := by
  have hp : W10 m ρ c (Proc.devRef .tc main_v18)
      = Host.dotGeneral (F := Ideal) (Cert.Lib.PlainMatmul.plainDims 100000 128 64 Product4.wholeWF) none (hiddenOf (X m c) (EI m c) (Wt1 m c) (B1 m c)) (Wt3 m c) := by
    refine (W10_arr m ρ c 2).trans ((Product4.array (V9 m ρ) c).trans ?_)
    rw [show Product4.hidden (V9 m ρ) c = _ from (hidden_W9 m ρ c).trans (hidden m ρ hsrc c),
      show Product4.weights (V9 m ρ) c = Wt3 m c from arg6_W9 m ρ c]
  have hs : W12 m ρ c (Proc.devRef .tc main_v22) = summed64 (dstRow (EI m c))
      (rows64 (Host.dotGeneral (F := Ideal) (Cert.Lib.PlainMatmul.plainDims 100000 128 64 Product4.wholeWF) none (hiddenOf (X m c) (EI m c) (Wt1 m c) (B1 m c)) (Wt3 m c)) (srcRow (EI m c))) := by
    rw [sums3 m ρ c, dst_W11 m ρ c, messages3 m ρ c, hp, src_W10 m ρ c, filled64 _ _ (hsrc c)]
  refine (W13_arr m ρ c 2).trans ((Bias5.array (V12 m ρ) c).trans ?_)
  rw [show Bias5.sums (V12 m ρ) c = _ from hs,
    show Bias5.biasRow (V12 m ρ) c = _ from (biasRow3 m ρ c).trans (by rw [arg7_W11 m ρ c])]
  rfl

end Cert.KernelIdeal.Chain

end
-- ==== Proof.SourceRange.lean ====
/-
  The precondition bounds the source row of the edge list: every source index names a node, from either end.
-/
import proofs.«412450_j44203803410712_2_alg».proof.Pre_finite_inputs
import proofs.«412450_j44203803410712_2_alg».proof.Proof.Gen.Pre_finite_inputs
import proofs.«412450_j44203803410712_2_alg».proof.Proof.TakeFill
import Idealize.ShloMosaic.Lib.ReduceAll

noncomputable section

namespace Cert.SourceRange

open Idealize.ShloMosaic Idealize.ShloMosaic.ValueIdx
open Cert.Pre_finite_inputs Cert.Pre_finite_inputs.Facts

/-- The scalar shape has one index. -/
instance subsingleton_scalar_idx : Subsingleton S_.Idx := ⟨fun a b => funext fun d => d.elim0⟩

/-- Where the precondition holds, each entry of the edge list's first row is in range. -/
theorem of_pre {F : FTy → Type} [FloatOps F] (a0 : FVec F S100000x256 .f32) (ei : IVec S2x1600000 32)
    (a2 : FVec F S256x128 .f32) (a3 : FVec F S128 .f32) (a4 : FVec F S128x64 .f32) (a5 : FVec F S64 .f32)
    (a6 : FVec F S128x64 .f32) (a7 : FVec F S64 .f32)
    (h : Cert.Pre_finite_inputs.fn (F := F) a0 ei a2 a3 a4 a5 a6 a7 = fun _ => 1#1) (e : S1600000.Idx) :
    Cert.TakeFill.InRange
      (shapeCast S1600000 (extractStridedSlice S1x1600000 ![0, 0] ei slices_S2x1600000_S1x1600000_0_0)
        shapeCasts_S1x1600000_S1600000 e) := by
  -- the predicate at its one index is a chain of "and"s; its last conjunct is the range test, reduced over all edges
  have h0 := congrFun h ValueIdx.ix0
  dsimp only [Cert.Pre_finite_inputs.fn, fn_part1, fn_part2] at h0
  have hlast := (IntOp.andi_eq_one.1 h0).2
  -- an "and" over all edges that is 1 is 1 at every edge
  have helt := Host.reduce_andi_all _ _ _ _ _ hlast e
  obtain ⟨hge, hlt⟩ := IntOp.andi_eq_one.1 helt
  -- the two signed comparisons, read as inequalities between integers
  have hge' : (4294867296#32 : BitVec 32).toInt ≤ _ := IntOp.cmpi_sge.1 hge
  have hlt' : _ < (100000#32 : BitVec 32).toInt := IntOp.cmpi_slt.1 hlt
  rw [show (4294867296#32 : BitVec 32).toInt = -100000 from by decide] at hge'
  rw [show (100000#32 : BitVec 32).toInt = 100000 from by decide] at hlt'
  exact ⟨hge', hlt'⟩

end Cert.SourceRange

end
-- ==== Proof.LibReshapeRow.lean ====
/-
  A general lemma: a vector of length `n` reshaped to a one-row array `[1, n]` is the same array as the vector laid
  along axis 1 of `[1, n]` by `broadcast_in_dim`. At `(u, q)` both read the vector at `q`: the reshape because the
  row-major positions agree (`u = 0`), the broadcast because axis 1 carries the vector's one axis. For any element
  type and any `n` other than 1 (for which the broadcast reads position 0, as the reshape does).
-/
import Idealize.ShloMosaic.Lib.Pipeline.Value
import Idealize.ShloMosaic.Lib.ValueIdx

namespace Cert.LibReshapeRow

open Idealize.ShloMosaic Idealize.ShloMosaic.ValueIdx

/-- `reshape : [n] → [1, n]` equals `broadcast_in_dim` with `dims = [1]`. -/
theorem reshape_row_eq_broadcast {α : Type} {n : ℕ} (hn : n ≠ 1) (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  obtain ⟨u, q, rfl⟩ : ∃ (u : Fin 1) (q : Fin n), j = ix2 u q := ⟨j 0, j 1, eq_ix2 j⟩
  rw [shapeCast_apply b h (ix2 u q) (ix1 q) (by
        rw [Shape.rowMajor_val_two, Shape.rowMajor_val_one]
        show q.val = u.val * n + q.val
        have hu : u.val = 0 := by have := u.isLt; omega
        rw [hu, Nat.zero_mul, Nat.zero_add]),
    broadcastInDim_apply ![1] h' b (ix2 u q) (ix1 q) (fun a => by
        match a with
        | ⟨0, _⟩ =>
          show q.val = if n = 1 then 0 else q.val
          rw [if_neg hn])]

end Cert.LibReshapeRow
-- ==== Proof.Meets.lean ====
/-
  The reference's two result terms are the kernel's layer functions of the same arrays.

  Both programs spell a layer with the same host operations in the same order. They differ in which dimension
  records they name (each program states its own; the records have the same fields) and in how the bias becomes a
  one-row array: the kernel program reshapes it, the reference lays it along axis 1 by a broadcast — the same array.
-/
import proofs.«412450_j44203803410712_2_alg».proof.Proof.KernelValue
import proofs.«412450_j44203803410712_2_alg».proof.Proof.LibReshapeRow
import proofs.«412450_j44203803410712_2_alg».proof.Proof.Gen.ReferenceIdeal

set_option maxRecDepth 16384

noncomputable section

namespace Cert.ReferenceIdeal.Meets

open Idealize.ShloMosaic Idealize.ShloMosaic.TcCoe
open Cert.ReferenceIdeal Cert.ReferenceIdeal.Gen

/-- The kernel program's reshape of a 128-vector to one row is the reference's broadcast of it along axis 1. -/
theorem biasRow128 (b : FVec Ideal S128 .f32) :
    shapeCast Cert.KernelIdeal.S1x128 b Cert.KernelIdeal.Facts₀.shapeCasts_S128_S1x128 = broadcastInDim S1x128 ![1] bcast_S128_S1x128_1 b :=
  Cert.LibReshapeRow.reshape_row_eq_broadcast (by decide) b _ _

/-- The same for a 64-vector. -/
theorem biasRow64 (b : FVec Ideal S64 .f32) :
    shapeCast Cert.KernelIdeal.S1x64 b Cert.KernelIdeal.Facts₀.shapeCasts_S64_S1x64 = broadcastInDim S1x64 ![1] bcast_S64_S1x64_1 b :=
  Cert.LibReshapeRow.reshape_row_eq_broadcast (by decide) b _ _

/-- The kernel side's literal records of the products and the reference's have the same fields (so have the two programs'
    gather and scatter records, which the closing comparisons below open). -/
theorem dot1_eq : Cert.Lib.PlainMatmul.plainDims 100000 256 128 Cert.KernelIdeal.Product0.wholeWF = dot_S100000x256_S256x128_S100000x128_1_0_0_1_n_n := rfl
theorem dot2_eq (wf : DotDims.WF S100000x128 S128x64 S100000x64 [1] [0] [0] [1] [] []) :
    Cert.Lib.PlainMatmul.plainDims 100000 128 64 wf = dot_S100000x128_S128x64_S100000x64_1_0_0_1_n_n := rfl

/-- The reference's hidden layer. -/
theorem hidden_eq (x : FVec Ideal S100000x256 .f32) (ei : IVec S2x1600000 32) (w1 : FVec Ideal S256x128 .f32) (b1 : FVec Ideal S128 .f32) :
    (maximumf (addf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x128_S1600000x1_S1600000x128_1_0_n_n_0_1_1128 (Host.dotGeneral dot_S100000x256_S256x128_S100000x128_1_0_0_1_n_n none x w1) (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))) (broadcastInDim S100000x128 ![0, 1] bcast_S1x128_S100000x128_0_1 (broadcastInDim S1x128 ![1] bcast_S128_S1x128_1 b1))) (broadcastInDim S100000x128 ![] bcast_S_S100000x128 (constant S_ .f32 0x00000000#32)) : FVec Ideal S100000x128 .f32)
      = Cert.KernelIdeal.Chain.hiddenOf x ei w1 b1 := by
  unfold Cert.KernelIdeal.Chain.hiddenOf
  rw [biasRow128, dot1_eq]
  rfl

/-- The reference's first result. -/
theorem mean_eq (rowBcast) (wf) (x : FVec Ideal S100000x256 .f32) (ei : IVec S2x1600000 32) (w1 : FVec Ideal S256x128 .f32) (b1 : FVec Ideal S128 .f32)
    (w2 : FVec Ideal S128x64 .f32) (b2 : FVec Ideal S64 .f32) :
    (addf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x64_S1600000x1_S1600000x64_1_0_n_n_0_1_164 (Host.dotGeneral dot_S100000x128_S128x64_S100000x64_1_0_0_1_n_n none (maximumf (addf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x128_S1600000x1_S1600000x128_1_0_n_n_0_1_1128 (Host.dotGeneral dot_S100000x256_S256x128_S100000x128_1_0_0_1_n_n none x w1) (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))) (broadcastInDim S100000x128 ![0, 1] bcast_S1x128_S100000x128_0_1 (broadcastInDim S1x128 ![1] bcast_S128_S1x128_1 b1))) (broadcastInDim S100000x128 ![] bcast_S_S100000x128 (constant S_ .f32 0x00000000#32))) w2) (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))) (broadcastInDim S100000x64 ![0, 1] bcast_S1x64_S100000x64_0_1 (broadcastInDim S1x64 ![1] bcast_S64_S1x64_1 b2)) : FVec Ideal S100000x64 .f32)
      = Cert.KernelIdeal.Chain.branchOf rowBcast wf (Cert.KernelIdeal.Chain.hiddenOf x ei w1 b1) ei w2 b2 := by
  rw [hidden_eq x ei w1 b1]
  unfold Cert.KernelIdeal.Chain.branchOf
  rw [biasRow64, dot2_eq]
  rfl

/-- The reference's second result. -/
theorem logvar_eq (rowBcast) (wf) (x : FVec Ideal S100000x256 .f32) (ei : IVec S2x1600000 32) (w1 : FVec Ideal S256x128 .f32) (b1 : FVec Ideal S128 .f32)
    (w3 : FVec Ideal S128x64 .f32) (b3 : FVec Ideal S64 .f32) :
    (addf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x64_S1600000x1_S1600000x64_1_0_n_n_0_1_164 (Host.dotGeneral dot_S100000x128_S128x64_S100000x64_1_0_0_1_n_n none (maximumf (addf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x128_S1600000x1_S1600000x128_1_0_n_n_0_1_1128 (Host.dotGeneral dot_S100000x256_S256x128_S100000x128_1_0_0_1_n_n none x w1) (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))) (broadcastInDim S100000x128 ![0, 1] bcast_S1x128_S100000x128_0_1 (broadcastInDim S1x128 ![1] bcast_S128_S1x128_1 b1))) (broadcastInDim S100000x128 ![] bcast_S_S100000x128 (constant S_ .f32 0x00000000#32))) w3) (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))) (broadcastInDim S100000x64 ![0, 1] bcast_S1x64_S100000x64_0_1 (broadcastInDim S1x64 ![1] bcast_S64_S1x64_1 b3)) : FVec Ideal S100000x64 .f32)
      = Cert.KernelIdeal.Chain.branchOf rowBcast wf (Cert.KernelIdeal.Chain.hiddenOf x ei w1 b1) ei w3 b3 := by
  rw [hidden_eq x ei w1 b1]
  unfold Cert.KernelIdeal.Chain.branchOf
  rw [biasRow64, dot2_eq]
  rfl

end Cert.ReferenceIdeal.Meets

end
-- ==== Proof.lean ====
/-
  The certificate of a three-layer graph convolution (a hidden layer with a rectifier feeding a mean branch and a
  log-variance branch) against its jnp reference, over the extended reals.

  Each layer is: a dense product; the product's rows gathered by the edges' source nodes and summed onto the edges'
  destination nodes; a bias. The kernel program computes the three products and the three bias stages in six tiled
  regions (twenty tiles of 5000 nodes each) and the gather and the neighbour sum in host operations between them; the
  reference computes everything in host operations. On the extended reals a product accumulated from zero over a tile of
  rows is the rows of the whole product, rounding the operands to bf16 first changes nothing, and the bias stages are
  pointwise; so each region leaves the whole-array operation of what it finds, and the two programs apply the same
  operations in the same order to the same arrays. The one difference is the gather: the kernel program's replaces a row
  whose source index is out of range by a fill value, the reference's does not. Under the precondition every source index
  names a node (counted from either end, as both programs count), so the fill is never used. No law of arithmetic is
  needed beyond these identifications, and finiteness of the inputs is not used.

  The three frames are the generated frames (the reference's is its generated run with the results dropped); nothing was
  rewritten by the idealization, so `preserves` asks nothing.
-/
import proofs.«412450_j44203803410712_2_alg».proof.Defs
import proofs.«412450_j44203803410712_2_alg».proof.Proof.Gen.Kernel
import proofs.«412450_j44203803410712_2_alg».proof.Proof.Gen.Kernel.Skeleton
import proofs.«412450_j44203803410712_2_alg».proof.Proof.Gen.Kernel.Launch
import proofs.«412450_j44203803410712_2_alg».proof.Proof.Gen.Kernel.Points
import proofs.«412450_j44203803410712_2_alg».proof.Proof.Gen.Kernel.Frame
import proofs.«412450_j44203803410712_2_alg».proof.Proof.Gen.KernelIdeal
import proofs.«412450_j44203803410712_2_alg».proof.Proof.Gen.KernelIdeal.Skeleton
import proofs.«412450_j44203803410712_2_alg».proof.Proof.Gen.KernelIdeal.Launch
import proofs.«412450_j44203803410712_2_alg».proof.Proof.Gen.KernelIdeal.Points
import proofs.«412450_j44203803410712_2_alg».proof.Proof.Gen.KernelIdeal.Frame
import proofs.«412450_j44203803410712_2_alg».proof.Proof.Gen.ReferenceIdeal
import proofs.«412450_j44203803410712_2_alg».proof.Proof.Gen.Pre_finite_inputs
import proofs.«412450_j44203803410712_2_alg».proof.Proof.Gen.ReferenceIdeal.Run
import proofs.«412450_j44203803410712_2_alg».proof.Proof.KernelRun
import proofs.«412450_j44203803410712_2_alg».proof.Proof.KernelValue
import proofs.«412450_j44203803410712_2_alg».proof.Proof.SourceRange
import proofs.«412450_j44203803410712_2_alg».proof.Proof.Meets
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal.Chain in
/-- Both programs end with the mean branch and the log-variance branch of the same hidden layer of the same arrays. -/
theorem algebraic : Cert.algebraic_KernelIdeal_ReferenceIdeal := by
  intro m ρ m' ρ' hpre hagree
  have hsrc : ∀ (c : Dev Cert.KernelIdeal.nD) (e : Cert.KernelIdeal.S1600000.Idx),
      Cert.TakeFill.InRange (Cert.KernelIdeal.Walks.srcRow (EI m c) e) :=
    fun c e => Cert.SourceRange.of_pre _ _ _ _ _ _ _ _ (hpre c) e
  refine ⟨fun c => branchOf Cert.KernelIdeal.Bias3.rowBcast Cert.KernelIdeal.Product2.wholeWF
        (hiddenOf (X m c) (EI m c) (Wt1 m c) (B1 m c)) (EI m c) (Wt2 m c) (B2 m c),
      fun c => branchOf Cert.KernelIdeal.Bias5.rowBcast Cert.KernelIdeal.Product4.wholeWF
        (hiddenOf (X m c) (EI m c) (Wt1 m c) (B1 m c)) (EI m c) (Wt3 m c) (B3 m c), ?_, ?_⟩
  · exact (θ_run Cert.KernelIdeal.defs _ _).mono
      (fun r h c => ⟨(h c).1.trans (mean m ρ hsrc c), (h c).2.1.trans (logvar m ρ hsrc c), (h c).2.2⟩)
      (Cert.KernelIdeal.Results.results m ρ)
  · refine (θ_run Cert.ReferenceIdeal.defs _ _).mono
      (fun r h c => ⟨(h c).1.trans ?_, (h c).2.1.trans ?_, (h c).2.2⟩)
      (Cert.ReferenceIdeal.Value.run (F := Ideal) m' ρ')
    · rw [(hagree c).1, (hagree c).2.1, (hagree c).2.2.1, (hagree c).2.2.2.1, (hagree c).2.2.2.2.1, (hagree c).2.2.2.2.2.1]
      exact Cert.ReferenceIdeal.Meets.mean_eq _ _ _ _ _ _ _ _
    · rw [(hagree c).1, (hagree c).2.1, (hagree c).2.2.1, (hagree c).2.2.2.1, (hagree c).2.2.2.2.2.2.1, (hagree c).2.2.2.2.2.2.2]
      exact Cert.ReferenceIdeal.Meets.logvar_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
